-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S32x1024x1024 : Shape := ⟨3, ![32, 1024, 1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel

variable [Facts]

def fn {F : FTy → Type} [FloatOps F] (main_arg0 : IVec S32x1024x1024 32) (main_arg1 : IVec S32x1024x1024 32) : IVec S_ 1 :=
  let main_c : IVec S_ 32 := constantI S_ 32 0#32
  let main_v0 : IVec S32x1024x1024 32 := broadcastInDim S32x1024x1024 ![] bcast_S_S32x1024x1024 main_c
  let main_v1 : IVec S32x1024x1024 1 := cmpi .sge main_arg0 main_v0
  let main_c_0 : IVec S_ 1 := constantI S_ 1 1#1
  let main_v2 : IVec S_ 1 := (fun x v => Host.reduce IntOp.andi x v reducesTo_S32x1024x1024_S_d0_1_2 h_S_) main_v1 main_c_0
  let main_c_1 : IVec S_ 32 := constantI S_ 32 0#32
  let main_v3 : IVec S32x1024x1024 32 := broadcastInDim S32x1024x1024 ![] bcast_S_S32x1024x1024 main_c_1
  let main_v4 : IVec S32x1024x1024 1 := cmpi .sge main_arg1 main_v3
  let main_c_2 : IVec S_ 1 := constantI S_ 1 1#1
  let main_v5 : IVec S_ 1 := (fun x v => Host.reduce IntOp.andi x v reducesTo_S32x1024x1024_S_d0_1_2 h_S_) main_v4 main_c_2
  let main_v6 : IVec S_ 1 := andi main_v2 main_v5
  main_v6
-- ==== Kernel.lean ====
abbrev S32x1024x1024 : Shape := ⟨3, ![32, 1024, 1024]⟩
abbrev S2x3x21 : Shape := ⟨3, ![2, 3, 21]⟩
abbrev S1x1024x1024 : Shape := ⟨3, ![1, 1024, 1024]⟩
abbrev S1x3x21 : Shape := ⟨3, ![1, 3, 21]⟩
abbrev S1024x1024 : Shape := ⟨2, ![1024, 1024]⟩
abbrev S1x1024 : Shape := ⟨2, ![1, 1024]⟩
abbrev S1x21 : Shape := ⟨2, ![1, 21]⟩
abbrev S1 : Shape := ⟨1, ![1]⟩
abbrev S1x1 : Shape := ⟨2, ![1, 1]⟩
abbrev S3x21 : Shape := ⟨2, ![3, 21]⟩
abbrev S_ : Shape := ⟨0, ![]⟩
abbrev S21 : Shape := ⟨1, ![21]⟩

abbrev nBuf : Space → Nat
  | .hbm => 33
  | .vmem => 6
  | .smem => 0
  | _ => 0

abbrev bufTy : (tb : Table) → Fin (tcTables nBuf tb) → BufTy
  | .hbm, ⟨0, _⟩ => ⟨S32x1024x1024, .i32⟩
  | .hbm, ⟨1, _⟩ => ⟨S32x1024x1024, .i32⟩
  | .hbm, ⟨2, _⟩ => ⟨S2x3x21, .i32⟩
  | .hbm, ⟨3, _⟩ => ⟨S_, .i32⟩
  | .hbm, ⟨4, _⟩ => ⟨S3x21, .i32⟩
  | .hbm, ⟨5, _⟩ => ⟨S3x21, .f32⟩
  | .hbm, ⟨6, _⟩ => ⟨S1x21, .f32⟩
  | .hbm, ⟨7, _⟩ => ⟨S21, .f32⟩
  | .hbm, ⟨8, _⟩ => ⟨S1x21, .f32⟩
  | .hbm, ⟨9, _⟩ => ⟨S21, .f32⟩
  | .hbm, ⟨10, _⟩ => ⟨S1x21, .f32⟩
  | .hbm, ⟨11, _⟩ => ⟨S21, .f32⟩
  | .hbm, ⟨12, _⟩ => ⟨S21, .f32⟩
  | .hbm, ⟨13, _⟩ => ⟨S21, .f32⟩
  | .hbm, ⟨14, _⟩ => ⟨S_, .f32⟩
  | .hbm, ⟨15, _⟩ => ⟨S21, .f32⟩
  | .hbm, ⟨16, _⟩ => ⟨S21, .f32⟩
  | .hbm, ⟨17, _⟩ => ⟨S_, .f32⟩
  | .hbm, ⟨18, _⟩ => ⟨S21, .f32⟩
  | .hbm, ⟨19, _⟩ => ⟨S21, .f32⟩
  | .hbm, ⟨20, _⟩ => ⟨S21, .f32⟩
  | .hbm, ⟨21, _⟩ => ⟨S_, .f32⟩
  | .hbm, ⟨22, _⟩ => ⟨S21, .f32⟩
  | .hbm, ⟨23, _⟩ => ⟨S21, .i1⟩
  | .hbm, ⟨24, _⟩ => ⟨S21, .f32⟩
  | .hbm, ⟨25, _⟩ => ⟨S21, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S1x1024x1024, .i32⟩
  | .local _ .vmem, ⟨1, _⟩ => ⟨S1x1024x1024, .i32⟩
  | .local _ .vmem, ⟨2, _⟩ => ⟨S1x1024x1024, .i32⟩
  | .local _ .vmem, ⟨3, _⟩ => ⟨S1x1024x1024, .i32⟩
  | .local _ .vmem, ⟨4, _⟩ => ⟨S1x3x21, .i32⟩
  | .local _ .vmem, ⟨5, _⟩ => ⟨S1x3x21, .i32⟩
  | _, _ => ⟨S32x1024x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_9 : BitVec 32 := 0#32
  let c21_i32 : BitVec 32 := 21#32
  let v16 : BitVec 32 := Scalar.addi c0_i32_9 c21_i32
  let c1_i32_10 : BitVec 32 := 1#32
  ⟨c0_i32_9, v16, c1_i32_10⟩
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x21 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x3x21_S1x3x21_0_0_0 : ∀ a, (![0, 0, 0] : Fin 3 → Nat) a + S1x3x21.size a ≤ S1x3x21.size a
  h_S1x3x21 : 0 < S1x3x21.numel
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  iota_S1x21_d1_w32 : S1x21.Iotas .tc 32 [1]
  natLt_1_32 : 1 < 32
  bitsLt_bf16_f32 : FTy.bits .bf16 < FTy.bits .f32
  reduces_S1x1024_S1 : S1x1024.Reduces [1] S1
  shapeCasts_S1_S1x1 : S1.ShapeCasts S1x1
  broadcasts_S1x1_S1x21 : S1x1.Broadcasts S1x21
  concatenates_S1x21_S1x21_S1x21_S3x21_d0 : Shape.Concatenates [S1x21, S1x21, S1x21] S3x21 0
  shapeCasts_S1x3x21_S1x3x21 : S1x3x21.ShapeCasts S1x3x21
  shapeCasts_S3x21_S1x3x21 : S3x21.ShapeCasts S1x3x21
  reducesTo_S2x3x21_S3x21_d0 : S2x3x21.ReducesTo [0] S3x21
  h_S_ : 0 < S_.numel
  slices_S3x21_S1x21_0_0 : S3x21.Slices ![0, 0] S1x21
  shapeCasts_S1x21_S21 : S1x21.ShapeCasts S21
  slices_S3x21_S1x21_1_0 : S3x21.Slices ![1, 0] S1x21
  slices_S3x21_S1x21_2_0 : S3x21.Slices ![2, 0] S1x21
  bcast_S_S21 : S_.BroadcastsInDim S21 (![] : Fin 0 → Fin S21.rank)
  reducesTo_S21_S_d0 : S21.ReducesTo [0] S_
  dot_S1x1024_S1024x1024_S1x1024_1_0_0_1_n_n_wf : DotDims.WF S1x1024 S1024x1024 S1x1024 [1] [0] [0] [1] [] []
  hrank0 : 0 < grid0.rank
  k0_t1_ok : k0_t1_loop.OK
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .i32 = 32 ∨ (Rect.block (s := S32x1024x1024) S1x1024x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .i32 = 32 ∨ (Rect.block (s := S32x1024x1024) S1x1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x21.size a ≤ S2x3x21.size a
  hwx0_2 : ∀ i : grid0.Coords, EltTy.bits .i32 = 32 ∨ (Rect.block (s := S2x3x21) S1x3x21.size (cc0_transform_2 i) (hinb0_2 i)).WholeWords (EltTy.packing .i32)

variable [Facts₀]

def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x3x21.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S33554432 : Shape := ⟨1, ![33554432]⟩
abbrev S_ : Shape := ⟨0, ![]⟩
abbrev S23 : Shape := ⟨1, ![23]⟩
abbrev S33554432x1 : Shape := ⟨2, ![33554432, 1]⟩
abbrev S21 : Shape := ⟨1, ![21]⟩

abbrev nBuf : Space → Nat
  | .hbm => 72
  | .vmem => 0
  | .smem => 0
  | _ => 0

abbrev bufTy : (tb : Table) → Fin (tcTables nBuf tb) → BufTy
  | .hbm, ⟨0, _⟩ => ⟨S32x1024x1024, .i32⟩
  | .hbm, ⟨1, _⟩ => ⟨S32x1024x1024, .i32⟩
  | .hbm, ⟨2, _⟩ => ⟨S33554432, .i32⟩
  | .hbm, ⟨3, _⟩ => ⟨S33554432, .i32⟩
  | .hbm, ⟨4, _⟩ => ⟨S_, .f32⟩
  | .hbm, ⟨5, _⟩ => ⟨S23, .f32⟩
  | .hbm, ⟨6, _⟩ => ⟨S_, .i32⟩
  | .hbm, ⟨7, _⟩ => ⟨S33554432, .i32⟩
  | .hbm, ⟨8, _⟩ => ⟨S33554432, .i1⟩
  | .hbm, ⟨9, _⟩ => ⟨S_, .i32⟩
  | .hbm, ⟨10, _⟩ => ⟨S33554432, .i32⟩
  | .hbm, ⟨11, _⟩ => ⟨S33554432, .i32⟩
  | .hbm, ⟨12, _⟩ => ⟨S33554432, .i32⟩
  | .hbm, ⟨13, _⟩ => ⟨S33554432x1, .i32⟩
  | .hbm, ⟨14, _⟩ => ⟨S_, .f32⟩
  | .hbm, ⟨15, _⟩ => ⟨S33554432, .f32⟩
  | .hbm, ⟨16, _⟩ => ⟨S23, .f32⟩
  | .hbm, ⟨17, _⟩ => ⟨S_, .f32⟩
  | .hbm, ⟨18, _⟩ => ⟨S23, .f32⟩
  | .hbm, ⟨19, _⟩ => ⟨S_, .i32⟩
  | .hbm, ⟨20, _⟩ => ⟨S33554432, .i32⟩
  | .hbm, ⟨21, _⟩ => ⟨S33554432, .i1⟩
  | .hbm, ⟨22, _⟩ => ⟨S_, .i32⟩
  | .hbm, ⟨23, _⟩ => ⟨S33554432, .i32⟩
  | .hbm, ⟨24, _⟩ => ⟨S33554432, .i32⟩
  | .hbm, ⟨25, _⟩ => ⟨S33554432, .i32⟩
  | .hbm, ⟨26, _⟩ => ⟨S33554432x1, .i32⟩
  | .hbm, ⟨27, _⟩ => ⟨S_, .f32⟩
  | .hbm, ⟨28, _⟩ => ⟨S33554432, .f32⟩
  | .hbm, ⟨29, _⟩ => ⟨S23, .f32⟩
  | .hbm, ⟨30, _⟩ => ⟨S33554432, .i1⟩
  | .hbm, ⟨31, _⟩ => ⟨S_, .i32⟩
  | .hbm, ⟨32, _⟩ => ⟨S_, .i32⟩
  | .hbm, ⟨33, _⟩ => ⟨S33554432, .i32⟩
  | .hbm, ⟨34, _⟩ => ⟨S33554432, .i32⟩
  | .hbm, ⟨35, _⟩ => ⟨S_, .f32⟩
  | .hbm, ⟨36, _⟩ => ⟨S23, .f32⟩
  | .hbm, ⟨37, _⟩ => ⟨S_, .i32⟩
  | .hbm, ⟨38, _⟩ => ⟨S33554432, .i32⟩
  | .hbm, ⟨39, _⟩ => ⟨S33554432, .i1⟩
  | .hbm, ⟨40, _⟩ => ⟨S_, .i32⟩
  | .hbm, ⟨41, _⟩ => ⟨S33554432, .i32⟩
  | .hbm, ⟨42, _⟩ => ⟨S33554432, .i32⟩
  | .hbm, ⟨43, _⟩ => ⟨S33554432, .i32⟩
  | .hbm, ⟨44, _⟩ => ⟨S33554432x1, .i32⟩
  | .hbm, ⟨45, _⟩ => ⟨S_, .f32⟩
  | .hbm, ⟨46, _⟩ => ⟨S33554432, .f32⟩
  | .hbm, ⟨47, _⟩ => ⟨S23, .f32⟩
  | .hbm, ⟨48, _⟩ => ⟨S21, .f32⟩
  | .hbm, ⟨49, _⟩ => ⟨S21, .f32⟩
  | .hbm, ⟨50, _⟩ => ⟨S21, .f32⟩
  | .hbm, ⟨51, _⟩ => ⟨S21, .f32⟩
  | .hbm, ⟨52, _⟩ => ⟨S21, .f32⟩
  | .hbm, ⟨53, _⟩ => ⟨S_, .f32⟩
  | .hbm, ⟨54, _⟩ => ⟨S21, .f32⟩
  | .hbm, ⟨55, _⟩ => ⟨S21, .f32⟩
  | .hbm, ⟨56, _⟩ => ⟨S_, .f32⟩
  | .hbm, ⟨57, _⟩ => ⟨S21, .f32⟩
  | .hbm, ⟨58, _⟩ => ⟨S21, .f32⟩
  | .hbm, ⟨59, _⟩ => ⟨S21, .f32⟩
  | .hbm, ⟨60, _⟩ => ⟨S_, .f32⟩
  | .hbm, ⟨61, _⟩ => ⟨S21, .f32⟩
  | .hbm, ⟨62, _⟩ => ⟨S21, .i1⟩
  | .hbm, ⟨63, _⟩ => ⟨S21, .f32⟩
  | .hbm, ⟨64, _⟩ => ⟨S21, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S32x1024x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_6 : Ref sig .tc := ⟨.hbm, 31, rfl⟩
abbrev main_call0_v0 : Ref sig .tc := ⟨.hbm, 32, rfl⟩
abbrev main_call0_v1 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_c_8 : Ref sig .tc := ⟨.hbm, 37, rfl⟩
abbrev main_v23 : Ref sig .tc := ⟨.hbm, 38, rfl⟩
abbrev main_v24 : Ref sig .tc := ⟨.hbm, 39, rfl⟩
abbrev main_c_9 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_cst_15 : Ref sig .tc := ⟨.hbm, 67, rfl⟩
abbrev main_v46 : Ref sig .tc := ⟨.hbm, 68, rfl⟩
abbrev main_cst_16 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]

class Facts₀ : Prop where
  shapeCasts_S32x1024x1024_S33554432 : S32x1024x1024.ShapeCasts S33554432
  bcast_S_S23 : S_.BroadcastsInDim S23 (![] : Fin 0 → Fin S23.rank)
  bcast_S_S33554432 : S_.BroadcastsInDim S33554432 (![] : Fin 0 → Fin S33554432.rank)
  bcast_S33554432_S33554432x1_0 : S33554432.BroadcastsInDim S33554432x1 (![0] : Fin 1 → Fin S33554432x1.rank)
  slices_S23_S21_1 : S23.Slices ![1] S21
  bcast_S_S21 : S_.BroadcastsInDim S21 (![] : Fin 0 → Fin S21.rank)
  reducesTo_S21_S_d0 : S21.ReducesTo [0] S_
  h_S_ : 0 < S_.numel
  scatter_S23_S33554432x1_S33554432_n_0_0_1_wf : ScatterDims.WF S23 S33554432x1 S33554432 [] [0] [0] 1

variable [Facts₀]

def scatter_S23_S33554432x1_S33554432_n_0_0_1 : ScatterDims S23 S33554432x1 S33554432 where
  updateWindowDims := []
  insertedWindowDims := [0]
  scatterDimsToOperandDims := [0]
  indexVectorDim := 1
  wf := scatter_S23_S33554432x1_S33554432_n_0_0_1_wf

class Facts : Prop extends Facts₀ where

variable [Facts]
-- ==== Proof.Counts.lean ====
/-
  The counts both programs compute, and the arithmetic both apply to them.

  Two label arrays of 32 images of 1024 x 1024 pixels are compared class by class, for the classes 1 .. 21.
  Three pixel counts per class c: the pixels whose true label is c, those whose predicted label is c, and
  those where both are c. From the three count vectors the per-class intersection-over-union
  (inter + eps) / (true + pred - inter + eps) and its mean over the classes that occur are computed by the
  same arithmetic in both programs (`iouOf`, `miouOf`).
  Counts are natural numbers; a count is split by image (`imgCnt`), by half of the batch (`halfCnt`: 16
  images) and over the whole batch (`totCnt`), which is how the kernel accumulates it.
-/
import Idealize.ShloMosaic.PureOps
import Idealize.ShloMosaic.PureOps.Ideal
import Idealize.ShloMosaic.Lib.ValueIdx

noncomputable section

namespace Cert.Hist

open Idealize.ShloMosaic Idealize.ShloMosaic.ValueIdx

abbrev SArr : Shape := ⟨3, ![32, 1024, 1024]⟩
abbrev S21 : Shape := ⟨1, ![21]⟩
abbrev S_ : Shape := ⟨0, ![]⟩

/-- The word of class l + 1 (the scored classes are 1 .. 21). -/
def cls (l : Fin 21) : BitVec 32 := BitVec.ofNat 32 (l.val + 1)

/-- Whether a pixel with predicted label p and true label t is counted in row r for class l + 1:
    row 0 counts true labels, row 1 predicted labels, row 2 pixels where both are the class. -/
def hitB (r : Fin 3) (l : Fin 21) (p t : BitVec 32) : Bool :=
  if r.val = 0 then t == cls l else if r.val = 1 then p == cls l else (t == cls l && p == cls l)

/-- The count of row r, class l + 1, inside image b (columns outside, rows inside). -/
def imgCnt (yp yt : IVec SArr 32) (r : Fin 3) (l : Fin 21) (b : Fin 32) : ℕ :=
  ∑ w : Fin 1024, ∑ h : Fin 1024, if hitB r l (yp (ix3 b h w)) (yt (ix3 b h w)) then 1 else 0

/-- Image i of half o of the batch. -/
def imgOf (o : Fin 2) (i : Fin 16) : Fin 32 := ⟨16 * o.val + i.val, by omega⟩

/-- The count over the first n images of half o. -/
def partCnt (yp yt : IVec SArr 32) (r : Fin 3) (l : Fin 21) (o : Fin 2) (n : ℕ) : ℕ :=
  ∑ i : Fin 16, if i.val < n then imgCnt yp yt r l (imgOf o i) else 0

/-- The count over half o of the batch. -/
def halfCnt (yp yt : IVec SArr 32) (r : Fin 3) (l : Fin 21) (o : Fin 2) : ℕ :=
  ∑ i : Fin 16, imgCnt yp yt r l (imgOf o i)

/-- The count over the whole batch. -/
def totCnt (yp yt : IVec SArr 32) (r : Fin 3) (l : Fin 21) : ℕ :=
  halfCnt yp yt r l 0 + halfCnt yp yt r l 1

/-- A count vector as extended reals. -/
def cntVec (yp yt : IVec SArr 32) (r : Fin 3) : FVec Ideal S21 .f32 :=
  fun l => (((totCnt yp yt r (l 0) : ℕ) : ℝ) : EReal)

theorem imgCnt_le (yp yt : IVec SArr 32) (r : Fin 3) (l : Fin 21) (b : Fin 32) : imgCnt yp yt r l b ≤ 1048576 := by
  unfold imgCnt
  calc (∑ w : Fin 1024, ∑ h : Fin 1024, if hitB r l (yp (ix3 b h w)) (yt (ix3 b h w)) then 1 else 0)
      ≤ ∑ _w : Fin 1024, ∑ _h : Fin 1024, 1 :=
        Finset.sum_le_sum fun w _ => Finset.sum_le_sum fun h _ => by split <;> omega
    _ = 1048576 := by simp

theorem partCnt_le (yp yt : IVec SArr 32) (r : Fin 3) (l : Fin 21) (o : Fin 2) (n : ℕ) :
    partCnt yp yt r l o n ≤ 16777216 := by
  unfold partCnt
  calc (∑ i : Fin 16, if i.val < n then imgCnt yp yt r l (imgOf o i) else 0)
      ≤ ∑ _i : Fin 16, 1048576 := Finset.sum_le_sum fun i _ => by
        split
        · exact imgCnt_le ..
        · omega
    _ = 16777216 := by simp

theorem partCnt_zero (yp yt : IVec SArr 32) (r : Fin 3) (l : Fin 21) (o : Fin 2) : partCnt yp yt r l o 0 = 0 := by
  simp [partCnt]

theorem partCnt_succ (yp yt : IVec SArr 32) (r : Fin 3) (l : Fin 21) (o : Fin 2) (n : ℕ) (hn : n < 16) :
    partCnt yp yt r l o (n + 1) = partCnt yp yt r l o n + imgCnt yp yt r l (imgOf o ⟨n, hn⟩) := by
  unfold partCnt
  rw [← Finset.sum_erase_add _ _ (Finset.mem_univ (⟨n, hn⟩ : Fin 16)),
    ← Finset.sum_erase_add (f := fun i : Fin 16 => if i.val < n then imgCnt yp yt r l (imgOf o i) else 0) _ (Finset.mem_univ (⟨n, hn⟩ : Fin 16))]
  simp only [lt_add_iff_pos_right, Nat.lt_one_iff, pos_of_gt, if_true, lt_self_iff_false, if_false, Nat.add_zero]
  congr 1
  refine Finset.sum_congr rfl fun i hi => ?_
  have hne : i.val ≠ n := fun e => (Finset.mem_erase.mp hi).1 (Fin.ext e)
  by_cases h : i.val < n
  · rw [if_pos h, if_pos (by omega)]
  · rw [if_neg h, if_neg (by omega)]

theorem partCnt_full (yp yt : IVec SArr 32) (r : Fin 3) (l : Fin 21) (o : Fin 2) :
    partCnt yp yt r l o 16 = halfCnt yp yt r l o := by
  unfold partCnt halfCnt
  exact Finset.sum_congr rfl fun i _ => if_pos i.isLt

theorem halfCnt_le (yp yt : IVec SArr 32) (r : Fin 3) (l : Fin 21) (o : Fin 2) : halfCnt yp yt r l o ≤ 16777216 :=
  (partCnt_full yp yt r l o) ▸ partCnt_le yp yt r l o 16

/-- The kernel's count array: per half of the batch, per row, per class, the count as a 32-bit word. -/
abbrev S2x3x21 : Shape := ⟨3, ![2, 3, 21]⟩
def G2 (yp yt : IVec SArr 32) : IVec S2x3x21 32 := fun j => BitVec.ofNat 32 (halfCnt yp yt (j 1) (j 2) (j 0))

/-! ## The arithmetic after the counts -/

/-- Per class: (inter + eps) / (true + pred - inter + eps), eps the f32 nearest 1e-6. -/
def iouOf (hb : S_.BroadcastsInDim S21 (![] : Fin 0 → Fin S21.rank)) (cT cP cI : FVec Ideal S21 .f32) : FVec Ideal S21 .f32 :=
  Host.divf (addf cI (broadcastInDim S21 ![] hb (constant S_ .f32 0x358637BD#32)))
    (addf (subf (addf cT cP) cI) (broadcastInDim S21 ![] hb (constant S_ .f32 0x358637BD#32)))

/-- Which classes occur among the true labels, as 0 / 1. -/
def presentOf (hb : S_.BroadcastsInDim S21 (![] : Fin 0 → Fin S21.rank)) (cT : FVec Ideal S21 .f32) : FVec Ideal S21 .f32 :=
  uitofp .f32 (cmpf .ogt cT (broadcastInDim S21 ![] hb (constant S_ .f32 0x00000000#32)))

/-- The mean of the per-class values over the classes that occur (over at least one). -/
def miouOf (hb : S_.BroadcastsInDim S21 (![] : Fin 0 → Fin S21.rank)) (hr : S21.ReducesTo [0] S_) (hs : 0 < S_.numel)
    (cT cP cI : FVec Ideal S21 .f32) : FVec Ideal S_ .f32 :=
  Host.divf (Host.reduceAdd (mulf (iouOf hb cT cP cI) (presentOf hb cT)) (constant S_ .f32 0x00000000#32) hr hs)
    (maximumf (Host.reduceAdd (presentOf hb cT) (constant S_ .f32 0x00000000#32) hr hs) (constant S_ .f32 0x3F800000#32))

end Cert.Hist

end
-- ==== Proof.LibFoldSum.lean ====
/-
  Left folds that add: a fold carrying three independent components is three folds; a fold whose every step
  adds its own amount at one entry of a table of extended reals ends, at that entry, at the start value plus
  the sum of the amounts; over Fin n in order that sum is the sum over Fin n; and a sum of amounts each
  masked to its own position picks one amount.
-/
import Mathlib.Algebra.BigOperators.Fin
import Mathlib.Data.EReal.Basic

namespace Cert.FoldSum

/-- A fold whose three carried components evolve independently is the triple of the three folds. -/
theorem foldl_triple {α β γ κ : Type} (f1 : κ → α → α) (f2 : κ → β → β) (f3 : κ → γ → γ) (L : List κ) (a : α) (b : β) (c : γ) :
    L.foldl (fun acc k => (f1 k acc.1, f2 k acc.2.1, f3 k acc.2.2)) (a, b, c)
      = (L.foldl (fun a k => f1 k a) a, L.foldl (fun b k => f2 k b) b, L.foldl (fun c k => f3 k c) c) := by
  induction L generalizing a b c with
  | nil => rfl
  | cons k L ih => simp only [List.foldl_cons]; exact ih _ _ _

/-- A fold of steps each adding its own amount at one entry ends, there, at the start plus the amounts' sum. -/
theorem foldl_add_at {κ ι : Type} (f : κ → (ι → EReal) → (ι → EReal)) (g : κ → EReal) (i : ι)
    (hf : ∀ k a, f k a i = a i + g k) (L : List κ) (a : ι → EReal) :
    (L.foldl (fun a k => f k a) a) i = a i + (L.map g).sum := by
  induction L generalizing a with
  | nil => simp
  | cons k L ih => rw [List.foldl_cons, ih, hf, List.map_cons, List.sum_cons, add_assoc]

/-- Over all of Fin n in order: the start plus the sum over Fin n. -/
theorem foldl_finRange_add_at {n : ℕ} {ι : Type} (f : Fin n → (ι → EReal) → (ι → EReal)) (g : Fin n → EReal) (i : ι)
    (hf : ∀ k a, f k a i = a i + g k) (a : ι → EReal) :
    ((List.finRange n).foldl (fun a k => f k a) a) i = a i + ∑ k : Fin n, g k := by
  rw [foldl_add_at f g i hf, Fin.sum_univ_def]

/-- A sum of amounts each masked to its own position picks one amount. -/
theorem sum_onehot {n : ℕ} (c : Fin n → EReal) (l : ℕ) (hl : l < n) :
    (∑ k : Fin n, c k * (if l = k.val then (1 : EReal) else 0)) = c ⟨l, hl⟩ := by
  rw [Finset.sum_eq_single (⟨l, hl⟩ : Fin n)]
  · simp
  · intro b _ hb
    have : l ≠ b.val := fun e => hb (Fin.ext e.symm)
    simp [this]
  · intro h; exact absurd (Finset.mem_univ _) h

end Cert.FoldSum
-- ==== Proof.KernelPartial.lean ====
/-
  One grid point's work: the 21 trips of the class loop over one image's two label blocks leave, in the three
  carried rows, the image's three count vectors.
-/
import proofs.«405121_j41497974014422_3_alg».proof.Proof.Gen.KernelIdeal.Skeleton
import proofs.«405121_j41497974014422_3_alg».proof.Proof.Counts
import proofs.«405121_j41497974014422_3_alg».proof.Proof.LibFoldSum
import Idealize.ShloMosaic.Lib.ValueIdx
import Idealize.ShloMosaic.Lib.ValueLayout
import Idealize.ShloMosaic.Lib.Pipeline.Value
import Idealize.ShloMosaic.Lib.Exec.Context
import Idealize.ShloMosaic.PureOps.Ideal.Laws

set_option maxRecDepth 16384

noncomputable section

namespace Cert.KernelIdeal.HistValue

open Idealize.ShloMosaic Idealize.ShloMosaic.ValueIdx
open Cert.KernelIdeal Cert.KernelIdeal.Gen Cert.Hist

/-- The count of a block's entries with a property (columns outside, rows inside). -/
def blkCnt (P : Fin 1024 → Fin 1024 → Bool) : ℕ := ∑ w : Fin 1024, ∑ h : Fin 1024, if P h w then 1 else 0

theorem trips_eq : k0_t1_loop.trips = 21 := by decide

/-- The class a trip of the loop scores: trip k scores class k + 1. -/
def tcls (k : Fin k0_t1_loop.trips) : Fin 21 := ⟨k.val, trips_eq ▸ k.isLt⟩

theorem word_eq (k : Fin k0_t1_loop.trips) : Scalar.addi (Scf.iv 0#32 1#32 k.val) 1#32 = cls (tcls k) := by
  have hk : k.val < 21 := trips_eq ▸ k.isLt
  unfold Scf.iv cls tcls
  show (0#32 + BitVec.ofNat 32 k.val * 1#32) + 1#32 = BitVec.ofNat 32 (k.val + 1)
  apply BitVec.eq_of_toNat_eq
  simp [BitVec.toNat_add, BitVec.toNat_mul]

theorem cls_toInt (l : Fin 21) : (cls l).toInt = ((l.val + 1 : ℕ) : Int) := by
  have hl := l.isLt
  unfold cls
  rw [BitVec.toInt_eq_toNat_cond, BitVec.toNat_ofNat]
  have e : (l.val + 1) % 2 ^ 32 = l.val + 1 := Nat.mod_eq_of_lt (by omega)
  rw [e, if_pos (by omega)]

/-- The 0 / 1 mask of one word against a class word, through the conversions to floats and back. -/
theorem mask_word (v c : BitVec 32) :
    FloatOps.sitofp (F := Ideal) .f32 ((FloatOps.cmpf (F := Ideal) .oeq (FloatOps.sitofp (F := Ideal) .bf16 v) (FloatOps.sitofp (F := Ideal) .bf16 c)).setWidth 32)
      = if v = c then (1 : EReal) else 0 := by
  show (((BitVec.setWidth 32 (Ideal.cmp .oeq ((v.toInt : ℝ) : EReal) ((c.toInt : ℝ) : EReal))).toInt : ℝ) : EReal) = _
  unfold Ideal.cmp
  by_cases h : v = c
  · subst h; simp
  · have hne : ((v.toInt : ℝ) : EReal) ≠ ((c.toInt : ℝ) : EReal) := by
      intro e
      exact h (BitVec.eq_of_toInt_eq (by exact_mod_cast e))
    simp [h, hne]

theorem pay7_apply (x1 : IVec S1x1024x1024 32) (k : Fin k0_t1_loop.trips) (h w : Fin 1024) :
    k0_pay7 (F := Ideal) x1 k (ix2 h w) = if x1 (ix3 0 h w) = cls (tcls k) then 1 else 0 := by
  unfold k0_pay7 k0_pay6
  simp only [truncf_apply, sitofp_apply, extui_apply, cmpf_apply, broadcast_apply]
  rw [shapeCast_1ab_ab_apply]
  show FloatOps.sitofp (F := Ideal) .f32 (BitVec.setWidth 32 (FloatOps.cmpf (F := Ideal) .oeq (FloatOps.sitofp (F := Ideal) .bf16 (x1 (ix3 0 h w)))
    (FloatOps.sitofp (F := Ideal) .bf16 (Scalar.addi (Scf.iv 0#32 1#32 k.val) 1#32)))) = _
  rw [word_eq, mask_word]

theorem pay8_apply (x0 : IVec S1x1024x1024 32) (k : Fin k0_t1_loop.trips) (h w : Fin 1024) :
    k0_pay8 (F := Ideal) x0 k (ix2 h w) = if x0 (ix3 0 h w) = cls (tcls k) then 1 else 0 := by
  unfold k0_pay8 k0_pay6
  simp only [truncf_apply, sitofp_apply, extui_apply, cmpf_apply, broadcast_apply]
  rw [shapeCast_1ab_ab_apply]
  show FloatOps.sitofp (F := Ideal) .f32 (BitVec.setWidth 32 (FloatOps.cmpf (F := Ideal) .oeq (FloatOps.sitofp (F := Ideal) .bf16 (x0 (ix3 0 h w)))
    (FloatOps.sitofp (F := Ideal) .bf16 (Scalar.addi (Scf.iv 0#32 1#32 k.val) 1#32)))) = _
  rw [word_eq, mask_word]

/-- The one-hot row of a trip: 1 at the trip's own lane, 0 elsewhere. -/
theorem pay9_apply (k : Fin k0_t1_loop.trips) (u : Fin 1) (l : Fin 21) :
    k0_pay9 (F := Ideal) k (ix2 u l) = if l.val = k.val then 1 else 0 := by
  unfold k0_pay9
  simp only [sitofp_apply, extui_apply, broadcast_apply]
  show (((BitVec.setWidth 32 (IntOp.cmpi .eq (IntOp.addi (BitVec.ofNat 32 (0 * 21 + l.val)) 1#32) (Scalar.addi (Scf.iv 0#32 1#32 k.val) 1#32))).toInt : ℝ) : EReal) = _
  rw [word_eq]
  have e : IntOp.addi (BitVec.ofNat 32 (0 * 21 + l.val)) 1#32 = cls l := by
    have hl := l.isLt
    unfold cls IntOp.addi
    apply BitVec.eq_of_toNat_eq
    simp [BitVec.toNat_add]
  rw [e]
  unfold IntOp.cmpi
  have hk : k.val < 21 := trips_eq ▸ k.isLt
  by_cases h : l.val = k.val
  · have e2 : cls l = cls (tcls k) := congrArg cls (Fin.ext h)
    simp [e2, h]
  · have e2 : cls l ≠ cls (tcls k) := fun e => h (by
      have := congrArg BitVec.toInt e
      rw [cls_toInt, cls_toInt] at this
      simp only [tcls] at this
      omega)
    have e3 : (cls l == cls (tcls k)) = false := beq_eq_false_iff_ne.mpr e2
    simp [e3, h]

/-! ## A row of ones times a 0 / 1 matrix, then the lane sum: the number of ones -/

abbrev D := dot_S1x1024_S1024x1024_S1x1024_1_0_0_1_n_n

theorem D_rank : D.contr.rank = 1 := by rw [DotDims.rank_contr]; rfl
theorem D_size : D.contr.size ⟨0, by rw [D_rank]; exact Nat.one_pos⟩ = 1024 := by
  rw [DotDims.size_contr D 0 (by decide)]; rfl

theorem lhs_axis1 (j : S1x1024.Idx) (k : D.contr.Idx) :
    (D.lhsIdx j k (1 : Fin 2)).val = (k ⟨0, by rw [D_rank]; exact Nat.one_pos⟩).val :=
  DotDims.lhsIdx_val_of_single D (cl := (1 : Fin 2)) rfl j k

theorem rhs_axis0 (j : S1x1024.Idx) (k : D.contr.Idx) :
    (D.rhsIdx j k (0 : Fin 2)).val = (k ⟨0, by rw [D_rank]; exact Nat.one_pos⟩).val :=
  DotDims.rhsIdx_val_of_single D (cr := (0 : Fin 2)) rfl j k

theorem rhs_axis1 (j : S1x1024.Idx) (k : D.contr.Idx) :
    (D.rhsIdx j k (1 : Fin 2)).val = (j (1 : Fin 2)).val := by
  unfold DotDims.rhsIdx
  rw [dif_neg (show ¬ (1 : Fin S1024x1024.rank) ∈ D.rhsBatch from by decide),
    dif_pos (show (1 : Fin S1024x1024.rank) ∈ D.rhsNonContracting from by decide)]
  rfl

theorem ones_matmul_apply (a : FVec Ideal S1x1024 .bf16) (M : FVec Ideal S1024x1024 .bf16) (u : Fin 1) (w : Fin 1024) :
    FloatOps.matmul D none a M (constant S1x1024 .f32 0x00000000#32) (ix2 u w) = ∑ h : Fin 1024, a (ix2 u h) * M (ix2 h w) := by
  rw [Ideal.matmul_constant_zero_apply]
  rw [← Equiv.sum_comp (contrEquiv1 D 1024 D_rank D_size).symm]
  refine Finset.sum_congr rfl fun h _ => ?_
  have hl : D.lhsIdx (ix2 u w) ((contrEquiv1 D 1024 D_rank D_size).symm h) = ix2 u h := by
    funext ax
    match ax with
    | ⟨0, _⟩ =>
      apply Fin.ext
      have h1 : (D.lhsIdx (ix2 u w) ((contrEquiv1 D 1024 D_rank D_size).symm h) ⟨0, by decide⟩).val < 1 := Fin.isLt _
      have h2 := u.isLt
      show (D.lhsIdx (ix2 u w) ((contrEquiv1 D 1024 D_rank D_size).symm h) ⟨0, by decide⟩).val = u.val
      omega
    | ⟨1, _⟩ =>
      apply Fin.ext
      exact (lhs_axis1 _ _).trans (contrEquiv1_symm_val D 1024 D_rank D_size h)
  have hr : D.rhsIdx (ix2 u w) ((contrEquiv1 D 1024 D_rank D_size).symm h) = ix2 h w := by
    funext ax
    match ax with
    | ⟨0, _⟩ =>
      apply Fin.ext
      exact (rhs_axis0 _ _).trans (contrEquiv1_symm_val D 1024 D_rank D_size h)
    | ⟨1, _⟩ =>
      apply Fin.ext
      exact rhs_axis1 _ _
  rw [hl, hr]

/-- The lane sum of a [1, 1024] row, kept as a [1, 1] entry and spread over 21 lanes. -/
theorem lanesum_apply (v : FVec Ideal S1x1024 .f32) (u : Fin 1) (l : Fin 21) :
    broadcastTo S1x21 (shapeCast S1x1 (multiReduction .add [1] S1 v 0x00000000#32 reduces_S1x1024_S1 (.inl rfl) rfl) shapeCasts_S1_S1x1) broadcasts_S1x1_S1x21 (ix2 u l)
      = ∑ w : Fin 1024, v (ix2 (0 : Fin 1) w) := by
  rw [broadcastTo_apply _ broadcasts_S1x1_S1x21 (ix2 u l) (ix2 (0 : Fin 1) (0 : Fin 1)) (fun a => by
    match a with
    | ⟨0, _⟩ => rfl
    | ⟨1, _⟩ => rfl)]
  rw [shapeCast_a_1a_apply]
  refine (Ideal.multiReduction_add_single v 0x00000000#32 reduces_S1x1024_S1 (.inl rfl) rfl (ix1 (0 : Fin 1))).trans ?_
  refine Finset.sum_congr rfl fun w _ => congrArg v ?_
  funext ax
  match ax with
  | ⟨0, _⟩ => exact Fin.ext (by
      have h1 : ((reduces_S1x1024_S1 : S1x1024.Reduces [1] S1).lift (ix1 (0 : Fin 1)) w ⟨0, by decide⟩).val < 1 := Fin.isLt _
      show ((reduces_S1x1024_S1 : S1x1024.Reduces [1] S1).lift (ix1 (0 : Fin 1)) w ⟨0, by decide⟩).val = 0
      omega)
  | ⟨1, _⟩ => rfl

/-- A double sum of 0 / 1 terms over a block is a natural number. -/
theorem sum_ind_cast (P : Fin 1024 → Fin 1024 → Bool) :
    (∑ w : Fin 1024, ∑ h : Fin 1024, (1 : EReal) * (if P h w then (1 : EReal) else 0))
      = (((∑ w : Fin 1024, ∑ h : Fin 1024, if P h w then 1 else 0 : ℕ) : ℝ) : EReal) := by
  rw [EReal.coe_natCast, Nat.cast_sum]
  refine Finset.sum_congr rfl fun w _ => ?_
  rw [Nat.cast_sum]
  refine Finset.sum_congr rfl fun h _ => ?_
  rw [one_mul]
  split <;> simp

theorem pay2_apply (u : Fin 1) (h : Fin 1024) : k0_pay2 (F := Ideal) (ix2 u h) = 1 := by
  have h1 : Ideal.ofBits .bf16 0x3F80#16 = 1 := IdealRules.sign_bit.ideal_onePat .bf16
  exact h1

/-- The row of ones times a 0 / 1 matrix, summed over the lanes and spread: the number of ones. -/
theorem rowcount (M : FVec Ideal S1024x1024 .bf16) (P : Fin 1024 → Fin 1024 → Bool)
    (hM : ∀ h w, M (ix2 h w) = if P h w then 1 else 0) (u : Fin 1) (l : Fin 21) :
    broadcastTo S1x21 (shapeCast S1x1 (multiReduction .add [1] S1
      (FloatOps.matmul D none (k0_pay2 (F := Ideal)) M (constant S1x1024 .f32 0x00000000#32)) 0x00000000#32 reduces_S1x1024_S1 (.inl rfl) rfl) shapeCasts_S1_S1x1) broadcasts_S1x1_S1x21 (ix2 u l)
      = (((blkCnt P : ℕ) : ℝ) : EReal) := by
  rw [lanesum_apply]
  unfold blkCnt
  rw [← sum_ind_cast]
  refine Finset.sum_congr rfl fun w _ => ?_
  rw [ones_matmul_apply]
  refine Finset.sum_congr rfl fun h _ => ?_
  rw [pay2_apply, hM]

/-- One trip adds, at the trip's own lane, the number of true labels of the block equal to the trip's class. -/
theorem pay10_apply (x1 : IVec S1x1024x1024 32) (k : Fin k0_t1_loop.trips) (a6 : FVec Ideal S1x21 .f32) (u : Fin 1) (l : Fin 21) :
    k0_pay10 (F := Ideal) x1 k a6 (ix2 u l)
      = a6 (ix2 u l) + (((blkCnt (fun h w => x1 (ix3 0 h w) == cls (tcls k)) : ℕ) : ℝ) : EReal) * (if l.val = k.val then 1 else 0) := by
  unfold k0_pay10
  refine Eq.trans (addf_apply _ _ _) ?_
  refine congrArg (fun z => a6 (ix2 u l) + z) ?_
  refine Eq.trans (mulf_apply _ _ _) ?_
  refine Eq.trans (congrArg (fun z => _ * z) (pay9_apply k u l)) ?_
  refine congrArg (fun z => z * (if l.val = k.val then (1 : EReal) else 0)) ?_
  exact rowcount (k0_pay7 (F := Ideal) x1 k) (fun h w => x1 (ix3 0 h w) == cls (tcls k))
    (fun h w => by rw [pay7_apply]; simp only [beq_iff_eq]) u l

theorem pay11_apply (x0 : IVec S1x1024x1024 32) (k : Fin k0_t1_loop.trips) (a7 : FVec Ideal S1x21 .f32) (u : Fin 1) (l : Fin 21) :
    k0_pay11 (F := Ideal) x0 k a7 (ix2 u l)
      = a7 (ix2 u l) + (((blkCnt (fun h w => x0 (ix3 0 h w) == cls (tcls k)) : ℕ) : ℝ) : EReal) * (if l.val = k.val then 1 else 0) := by
  unfold k0_pay11
  refine Eq.trans (addf_apply _ _ _) ?_
  refine congrArg (fun z => a7 (ix2 u l) + z) ?_
  refine Eq.trans (mulf_apply _ _ _) ?_
  refine Eq.trans (congrArg (fun z => _ * z) (pay9_apply k u l)) ?_
  refine congrArg (fun z => z * (if l.val = k.val then (1 : EReal) else 0)) ?_
  exact rowcount (k0_pay8 (F := Ideal) x0 k) (fun h w => x0 (ix3 0 h w) == cls (tcls k))
    (fun h w => by rw [pay8_apply]; simp only [beq_iff_eq]) u l

theorem pay12_apply (x0 x1 : IVec S1x1024x1024 32) (k : Fin k0_t1_loop.trips) (a8 : FVec Ideal S1x21 .f32) (u : Fin 1) (l : Fin 21) :
    k0_pay12 (F := Ideal) x0 x1 k a8 (ix2 u l)
      = a8 (ix2 u l) + (((blkCnt (fun h w => (x1 (ix3 0 h w) == cls (tcls k)) && (x0 (ix3 0 h w) == cls (tcls k))) : ℕ) : ℝ) : EReal)
          * (if l.val = k.val then 1 else 0) := by
  unfold k0_pay12
  refine Eq.trans (addf_apply _ _ _) ?_
  refine congrArg (fun z => a8 (ix2 u l) + z) ?_
  refine Eq.trans (mulf_apply _ _ _) ?_
  refine Eq.trans (congrArg (fun z => _ * z) (pay9_apply k u l)) ?_
  refine congrArg (fun z => z * (if l.val = k.val then (1 : EReal) else 0)) ?_
  refine rowcount (mulf (k0_pay7 (F := Ideal) x1 k) (k0_pay8 (F := Ideal) x0 k))
    (fun h w => (x1 (ix3 0 h w) == cls (tcls k)) && (x0 (ix3 0 h w) == cls (tcls k))) (fun h w => ?_) u l
  refine Eq.trans (mulf_apply _ _ _) ?_
  rw [pay7_apply, pay8_apply]
  by_cases h1 : x1 (ix3 0 h w) = cls (tcls k) <;> by_cases h0 : x0 (ix3 0 h w) = cls (tcls k) <;> simp [h1, h0]

theorem pay3_apply (u : Fin 1) (l : Fin 21) : k0_pay3 (F := Ideal) (ix2 u l) = 0 := by
  show Ideal.ofBits .f32 0x00000000#32 = 0
  exact Ideal.ofBits_zero_f32
theorem pay4_apply (u : Fin 1) (l : Fin 21) : k0_pay4 (F := Ideal) (ix2 u l) = 0 := by
  show Ideal.ofBits .f32 0x00000000#32 = 0
  exact Ideal.ofBits_zero_f32
theorem pay5_apply (u : Fin 1) (l : Fin 21) : k0_pay5 (F := Ideal) (ix2 u l) = 0 := by
  show Ideal.ofBits .f32 0x00000000#32 = 0
  exact Ideal.ofBits_zero_f32

/-! ## The 21 trips -/

/-- One trip of the class loop on the carried triple: x0 the predicted-label block, x1 the true-label block. -/
def tripStep (x0 x1 : IVec S1x1024x1024 32) :
    Fin k0_t1_loop.trips → FVec Ideal S1x21 .f32 × FVec Ideal S1x21 .f32 × FVec Ideal S1x21 .f32 →
      FVec Ideal S1x21 .f32 × FVec Ideal S1x21 .f32 × FVec Ideal S1x21 .f32 :=
  fun a a_1 => (k0_pay10 (F := Ideal) x1 a a_1.1, k0_pay11 (F := Ideal) x0 a a_1.2.1, k0_pay12 (F := Ideal) x0 x1 a a_1.2.2)

/-- The three carried rows after all the trips. -/
def partial3 (x0 x1 : IVec S1x1024x1024 32) : FVec Ideal S1x21 .f32 × FVec Ideal S1x21 .f32 × FVec Ideal S1x21 .f32 :=
  Scf.fold (tripStep x0 x1) (k0_pay3 (F := Ideal), k0_pay4 (F := Ideal), k0_pay5 (F := Ideal))

/-- The same by row number. -/
def partialV (x0 x1 : IVec S1x1024x1024 32) (r : Fin 3) : FVec Ideal S1x21 .f32 :=
  if r.val = 0 then (partial3 x0 x1).1 else if r.val = 1 then (partial3 x0 x1).2.1 else (partial3 x0 x1).2.2

/-- The carried rows evolve independently: three folds. -/
theorem partial3_eq (x0 x1 : IVec S1x1024x1024 32) :
    partial3 x0 x1 = ((List.finRange k0_t1_loop.trips).foldl (fun a k => k0_pay10 (F := Ideal) x1 k a) (k0_pay3 (F := Ideal)),
      (List.finRange k0_t1_loop.trips).foldl (fun a k => k0_pay11 (F := Ideal) x0 k a) (k0_pay4 (F := Ideal)),
      (List.finRange k0_t1_loop.trips).foldl (fun a k => k0_pay12 (F := Ideal) x0 x1 k a) (k0_pay5 (F := Ideal))) := by
  unfold partial3
  rw [Scf.fold_eq]
  exact Cert.FoldSum.foldl_triple (fun k a => k0_pay10 (F := Ideal) x1 k a) (fun k a => k0_pay11 (F := Ideal) x0 k a)
    (fun k a => k0_pay12 (F := Ideal) x0 x1 k a) _ _ _ _

/-- A fold of trips that each add their class's count at their own lane leaves, at lane l, the count of class l + 1. -/
theorem fold_row (f : Fin k0_t1_loop.trips → FVec Ideal S1x21 .f32 → FVec Ideal S1x21 .f32) (a0 : FVec Ideal S1x21 .f32)
    (cnt : Fin 21 → ℕ) (u : Fin 1) (l : Fin 21) (ha0 : a0 (ix2 u l) = 0)
    (hf : ∀ k a, f k a (ix2 u l) = a (ix2 u l) + (((cnt (tcls k) : ℕ) : ℝ) : EReal) * (if l.val = k.val then 1 else 0)) :
    ((List.finRange k0_t1_loop.trips).foldl (fun a k => f k a) a0) (ix2 u l) = (((cnt l : ℕ) : ℝ) : EReal) := by
  have hl : l.val < k0_t1_loop.trips := by rw [trips_eq]; exact l.isLt
  rw [Cert.FoldSum.foldl_finRange_add_at f (fun k => (((cnt (tcls k) : ℕ) : ℝ) : EReal) * (if l.val = k.val then 1 else 0)) (ix2 u l) hf,
    ha0, zero_add, Cert.FoldSum.sum_onehot (fun k => (((cnt (tcls k) : ℕ) : ℝ) : EReal)) l.val hl]
  rfl

theorem partialV_apply (x0 x1 : IVec S1x1024x1024 32) (r : Fin 3) (u : Fin 1) (l : Fin 21) :
    partialV x0 x1 r (ix2 u l)
      = (((blkCnt (fun h w => hitB r l (x0 (ix3 0 h w)) (x1 (ix3 0 h w))) : ℕ) : ℝ) : EReal) := by
  unfold partialV
  rw [partial3_eq]
  by_cases h0 : r.val = 0
  · rw [if_pos h0]
    simp only [hitB, h0, if_true]
    exact fold_row (fun k a => k0_pay10 (F := Ideal) x1 k a) _ (fun l' => blkCnt (fun h w => x1 (ix3 0 h w) == cls l')) u l
      (pay3_apply u l) (fun k a => pay10_apply x1 k a u l)
  · rw [if_neg h0]
    by_cases h1 : r.val = 1
    · rw [if_pos h1]
      simp only [hitB, h0, h1, if_true, if_false]
      exact fold_row (fun k a => k0_pay11 (F := Ideal) x0 k a) _ (fun l' => blkCnt (fun h w => x0 (ix3 0 h w) == cls l')) u l
        (pay4_apply u l) (fun k a => pay11_apply x0 k a u l)
    · rw [if_neg h1]
      simp only [hitB, h0, h1, if_false]
      exact fold_row (fun k a => k0_pay12 (F := Ideal) x0 x1 k a) _
        (fun l' => blkCnt (fun h w => (x1 (ix3 0 h w) == cls l') && (x0 (ix3 0 h w) == cls l'))) u l
        (pay5_apply u l) (fun k a => pay12_apply x0 x1 k a u l)

end Cert.KernelIdeal.HistValue

end
-- ==== Proof.KernelStore.lean ====
/-
  The kernel's last stored value read at an index.

  The stored array is the old count array plus, entry by entry, the three per-row count vectors of the
  image stacked into a [3, 21] array, converted from floats to 32-bit integers and given a leading unit
  axis. A count is a natural number of at most 2^20, so its conversion is the word of that number.
-/
import proofs.«405121_j41497974014422_3_alg».proof.Proof.Gen.KernelIdeal.Skeleton
import Idealize.ShloMosaic.PureOps.Ideal
import Idealize.ShloMosaic.Lib.ValueIdx
import Idealize.ShloMosaic.Lib.ValueLayout
import Idealize.ShloMosaic.Lib.Pipeline.Value

noncomputable section

namespace Cert.KernelIdeal.HistValue

open Idealize.ShloMosaic Idealize.ShloMosaic.ValueIdx Cert.KernelIdeal Cert.KernelIdeal.Gen

/-- The float-to-signed-integer conversion of a natural number below 2^31 is its word. -/
theorem fptosi_nat (k : ℕ) (hk : k < 2147483648) :
    Ideal.fptosi 32 (((k : ℕ) : ℝ) : EReal) = BitVec.ofNat 32 k := by
  have h0 : (0 : ℝ) ≤ (k : ℝ) := Nat.cast_nonneg k
  rw [Ideal.fptosi, Ideal.toIntClamped_coe, if_pos h0, Int.floor_natCast]
  have h1 : min (((2 ^ (32 - 1) : ℕ) : ℤ) - 1) (k : ℤ) = (k : ℤ) := min_eq_right (by norm_num <;> omega)
  have h2 : max (-((2 ^ (32 - 1) : ℕ) : ℤ)) (k : ℤ) = (k : ℤ) := max_eq_right (by norm_num <;> omega)
  rw [h1, h2]
  exact BitVec.ofInt_natCast 32 k

/-- The three [1, 21] rows stacked along axis 0, read at (r, l), are row r at (0, l). -/
theorem stack_apply {α : Type} (v : Fin 3 → (S1x21.Idx → α))
    (h : Shape.Concatenates (([⟨S1x21, v 0⟩, ⟨S1x21, v 1⟩, ⟨S1x21, v 2⟩] : List ((s : Shape) × (s.Idx → α))).map (·.1)) S3x21 0)
    (r : Fin 3) (l : Fin 21) :
    concatenate S3x21 0 [⟨S1x21, v 0⟩, ⟨S1x21, v 1⟩, ⟨S1x21, v 2⟩] h (ix2 r l) = v r (ix2 (0 : Fin 1) l) := by
  have hi : ∀ (j : S3x21.Idx) (b : Fin S1x21.rank), b.cast (rfl : S1x21.rank = S3x21.rank) ≠ (0 : Fin S3x21.rank) →
      ((ix2 (0 : Fin 1) l : S1x21.Idx) b).val = ((ix2 r l : S3x21.Idx) (b.cast rfl)).val := by
    intro j b hb
    match b with
    | ⟨0, _⟩ => exact absurd rfl hb
    | ⟨1, _⟩ => rfl
  match r with
  | ⟨0, _⟩ =>
    exact concatenate_apply_piece (0 : Fin S3x21.rank) _ h _ 0 (by show 0 < 3; omega) S1x21 (v 0) rfl rfl 0 rfl
      (ix2 (0 : Fin 1) l) (hi (ix2 0 l)) rfl
  | ⟨1, _⟩ =>
    exact concatenate_apply_piece (0 : Fin S3x21.rank) _ h _ 1 (by show 1 < 3; omega) S1x21 (v 1) rfl rfl 1 rfl
      (ix2 (0 : Fin 1) l) (hi (ix2 0 l)) rfl
  | ⟨2, _⟩ =>
    exact concatenate_apply_piece (0 : Fin S3x21.rank) _ h _ 2 (by show 2 < 3; omega) S1x21 (v 2) rfl rfl 2 rfl
      (ix2 (0 : Fin 1) l) (hi (ix2 0 l)) rfl

/-- The stored value at (u, r, l): the old entry plus the word of row r's count of class l. -/
theorem pay13_apply (v : Fin 3 → FVec Ideal S1x21 .f32) (xo : IVec S1x3x21 32) (n : Fin 3 → Fin 21 → ℕ)
    (hn : ∀ r l, n r l ≤ 1048576)
    (hv : ∀ (r : Fin 3) (u : Fin 1) (l : Fin 21), v r (ix2 u l) = (((n r l : ℕ) : ℝ) : EReal))
    (u : Fin 1) (r : Fin 3) (l : Fin 21) :
    k0_pay13 (F := Ideal) (v 0) (v 1) (v 2) xo (ix3 u r l) = xo (ix3 u r l) + BitVec.ofNat 32 (n r l) := by
  unfold k0_pay13
  show IntOp.addi (shapeCast S1x3x21 xo _ (ix3 u r l)) (shapeCast S1x3x21 (fptosi 32 _) _ (ix3 u r l)) = _
  rw [shapeCast_self, shapeCast_ab_1ab_apply]
  show xo (ix3 u r l) + Ideal.fptosi 32 (concatenate S3x21 0 _ _ (ix2 r l)) = _
  rw [stack_apply v _ r l, hv r 0 l, fptosi_nat _ (lt_of_le_of_lt (hn r l) (by norm_num))]

end Cert.KernelIdeal.HistValue

end
-- ==== Proof.KernelArray.lean ====
/-
  The kernel's count array after the run: entry (o, r, l) is the count of row r, class l + 1, over half o of
  the batch, accumulated over that half's 16 images one grid point at a time.

  Grid point t = 16 o + i works on image t. Its count block starts from zero when i = 0 and otherwise from
  what point t - 1 left; the point adds the image's three count vectors. So after point t the block holds the
  counts over the first i + 1 images of half o (induction on the point), and the block written back at
  i = 15 holds the half's counts. The two written blocks tile the [2, 3, 21] array.
-/
import proofs.«405121_j41497974014422_3_alg».proof.Proof.Gen.KernelIdeal.Frame
import proofs.«405121_j41497974014422_3_alg».proof.Proof.Counts
import proofs.«405121_j41497974014422_3_alg».proof.Proof.KernelPartial
import proofs.«405121_j41497974014422_3_alg».proof.Proof.KernelStore
import Idealize.ShloMosaic.Lib.Pipeline.Value
import Idealize.ShloMosaic.Lib.Tactic

set_option maxRecDepth 16384

noncomputable section

namespace Cert.KernelIdeal.HistValue

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0, 0] : Fin 3 → Nat) = fun _ => 0 := funext fun a => by fin_cases a <;> rfl

variable (m : (ℓ : Loc nD τ sig) → Buf (Elt Ideal) ℓ)

/-- The count array of the two argument arrays on core c. -/
abbrev G2m (c : Dev nD) : IVec S2x3x21 32 :=
  Cert.Hist.G2 (m ((c.tc : Thread nD τ).loc main_arg0)) (m ((c.tc : Thread nD τ).loc main_arg1))

/-! ## What one grid point leaves in the count block -/

/-- A point that does not start a half adds its image's three count vectors to the block it finds. -/
theorem out_B (c : Dev nD) (i : grid0.Coords) (a2 : Memref sig .tc .vmem S1x1024x1024 .i32) (h2 : a2.IsWhole)
    (a3 : Memref sig .tc .vmem S1x1024x1024 .i32) (h3 : a3.IsWhole) (a4 : Memref sig .tc .vmem S1x3x21 .i32) (h4 : a4.IsWhole)
    (hc : ¬cond0_0 i) (x0 x1 : IVec S1x1024x1024 32) (xo2 : IVec S1x3x21 32) :
    out0_B_2 (F := Ideal) c i a2 h2 a3 h3 a4 h4 hc x0 x1 xo2
      = k0_pay13 (F := Ideal) (partialV x0 x1 0) (partialV x0 x1 1) (partialV x0 x1 2) xo2 := by
  unfold out0_B_2
  rw [View.read_writes_eq_canon _ _ _ (cover0_B_2 c i a2 h2 a3 h3 a4 h4 hc x0 x1 xo2)]
  unfold kernelRun0_B
  dsimp only
  sl_unfold_words
  rw [View.canon_unit_zero hz]
  simp only [View.readAt_eq_ld, h2.read_unread, h3.read_unread, h4.read_unread,
    View.ld_unit_zero (S := S1x1024x1024) hz, View.ld_unit_zero (S := S1x3x21) hz]
  rfl

/-- A point that starts a half stores the zero block first and adds its image's count vectors to that. -/
theorem out_A (c : Dev nD) (i : grid0.Coords) (a2 : Memref sig .tc .vmem S1x1024x1024 .i32) (h2 : a2.IsWhole)
    (a3 : Memref sig .tc .vmem S1x1024x1024 .i32) (h3 : a3.IsWhole) (a4 : Memref sig .tc .vmem S1x3x21 .i32) (h4 : a4.IsWhole)
    (hc : cond0_0 i) (x0 x1 : IVec S1x1024x1024 32) :
    out0_A_2 (F := Ideal) c i a2 h2 a3 h3 a4 h4 hc x0 x1
      = k0_pay13 (F := Ideal) (partialV x0 x1 0) (partialV x0 x1 1) (partialV x0 x1 2) k0_pay1 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x3x21) hz, View.readCov_unit_zero (S := S1x3x21) _ hz]
  simp only [View.readAt_eq_ld, h2.read_unread, h3.read_unread, h4.read_unread,
    View.ld_unit_zero (S := S1x1024x1024) hz, View.ld_unit_zero (S := S1x3x21) hz]
  rfl

/-! ## The windows' blocks read at an index -/

/-- The printed index maps, decided over the grid: at point t the label windows are on image t, the count
    window on half t / 16. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0 :=
  (by decide +kernel : ∀ t : Fin grid0.N, _)

/-- The predicted-label block of point t is image t of the predicted labels. -/
theorem blk0_apply (c : Dev nD) (t : Fin cfg0.N) (h w : Fin 1024) (b : Fin 32) (hb : b.val = t.val) :
    (iblk m c 0 t : IVec S1x1024x1024 32) (ix3 0 h w) = m ((c.tc : Thread nD τ).loc main_arg0) (ix3 b h w) := by
  obtain ⟨e0, e1, e2, -⟩ := idx_facts t
  unfold iblk
  rw [View.read_apply]
  show V m c main_arg0 _ = m ((c.tc : Thread nD τ).loc main_arg0) _
  rw [V_main_arg0]
  congr 1
  funext a
  apply Fin.ext
  match a with
  | ⟨0, _⟩ => show win0_0.index t (0 : Fin 3) * 1 + 1 * 0 = b.val; rw [e0]; omega
  | ⟨1, _⟩ => show win0_0.index t (1 : Fin 3) * 1024 + 1 * h.val = h.val; rw [e1]; omega
  | ⟨2, _⟩ => show win0_0.index t (2 : Fin 3) * 1024 + 1 * w.val = w.val; rw [e2]; omega

/-- The true-label block of point t is image t of the true labels. -/
theorem blk1_apply (c : Dev nD) (t : Fin cfg0.N) (h w : Fin 1024) (b : Fin 32) (hb : b.val = t.val) :
    (iblk m c 1 t : IVec S1x1024x1024 32) (ix3 0 h w) = m ((c.tc : Thread nD τ).loc main_arg1) (ix3 b h w) := by
  obtain ⟨-, -, -, e0, e1, e2, -⟩ := idx_facts t
  unfold iblk
  rw [View.read_apply]
  show V m c main_arg1 _ = m ((c.tc : Thread nD τ).loc main_arg1) _
  rw [V_main_arg1]
  congr 1
  funext a
  apply Fin.ext
  match a with
  | ⟨0, _⟩ => show win0_1.index t (0 : Fin 3) * 1 + 1 * 0 = b.val; rw [e0]; omega
  | ⟨1, _⟩ => show win0_1.index t (1 : Fin 3) * 1024 + 1 * h.val = h.val; rw [e1]; omega
  | ⟨2, _⟩ => show win0_1.index t (2 : Fin 3) * 1024 + 1 * w.val = w.val; rw [e2]; omega

/-- The count over point t's two blocks is the count inside image t. -/
theorem blkCnt_point (c : Dev nD) (t : Fin cfg0.N) (r : Fin 3) (l : Fin 21) (b : Fin 32) (hb : b.val = t.val) :
    blkCnt (fun h w => Cert.Hist.hitB r l ((iblk m c 0 t : IVec S1x1024x1024 32) (ix3 0 h w))
        ((iblk m c 1 t : IVec S1x1024x1024 32) (ix3 0 h w)))
      = Cert.Hist.imgCnt (m ((c.tc : Thread nD τ).loc main_arg0)) (m ((c.tc : Thread nD τ).loc main_arg1)) r l b := by
  unfold blkCnt Cert.Hist.imgCnt
  refine Finset.sum_congr rfl fun w _ => Finset.sum_congr rfl fun h _ => ?_
  beta_reduce
  rw [blk0_apply m c t h w b hb, blk1_apply m c t h w b hb]

/-! ## The count block point by point -/

/-- The three count vectors of point t's image, as the stored value reads them. -/
theorem point_rows (c : Dev nD) (t : Fin cfg0.N) (b : Fin 32) (hb : b.val = t.val) (r : Fin 3) (u : Fin 1) (l : Fin 21) :
    partialV (iblk m c 0 t) (iblk m c 1 t) r (ix2 u l)
      = (((Cert.Hist.imgCnt (m ((c.tc : Thread nD τ).loc main_arg0)) (m ((c.tc : Thread nD τ).loc main_arg1)) r l b : ℕ) : ℝ) : EReal) := by
  rw [partialV_apply (iblk m c 0 t) (iblk m c 1 t) r u l, blkCnt_point m c t r l b hb]

/-- At a point that starts a half the count block holds the image's counts. -/
theorem point_A (c : Dev nD) (t : Fin cfg0.N) (h0 : t.val % 16 = 0) (b : Fin 32) (hb : b.val = t.val)
    (u : Fin 1) (r : Fin 3) (l : Fin 21) :
    (outsAt0 m c t.val t.isLt : IVec S1x3x21 32) (ix3 u r l)
      = BitVec.ofNat 32 (Cert.Hist.imgCnt (m ((c.tc : Thread nD τ).loc main_arg0)) (m ((c.tc : Thread nD τ).loc main_arg1)) r l b) := by
  rw [outsAt0_A m c t h0, out_A]
  rw [pay13_apply (fun r' => partialV (iblk m c 0 t) (iblk m c 1 t) r') k0_pay1
    (fun r' l' => Cert.Hist.imgCnt (m ((c.tc : Thread nD τ).loc main_arg0)) (m ((c.tc : Thread nD τ).loc main_arg1)) r' l' b)
    (fun r' l' => Cert.Hist.imgCnt_le _ _ r' l' b) (fun r' u' l' => point_rows m c t b hb r' u' l') u r l]
  show 0#32 + _ = _
  rw [BitVec.zero_add]

/-- At any other point it holds what the point before left plus the image's counts. -/
theorem point_B (c : Dev nD) (t : Fin cfg0.N) (h0 : ¬t.val % 16 = 0) (b : Fin 32) (hb : b.val = t.val)
    (u : Fin 1) (r : Fin 3) (l : Fin 21) :
    (outsAt0 m c t.val t.isLt : IVec S1x3x21 32) (ix3 u r l)
      = (outsAt0 m c (t.val - 1) (Nat.lt_of_le_of_lt (Nat.sub_le _ _) t.isLt) : IVec S1x3x21 32) (ix3 u r l)
        + BitVec.ofNat 32 (Cert.Hist.imgCnt (m ((c.tc : Thread nD τ).loc main_arg0)) (m ((c.tc : Thread nD τ).loc main_arg1)) r l b) := by
  rw [outsAt0_B m c t h0, out_B]
  rw [pay13_apply (fun r' => partialV (iblk m c 0 t) (iblk m c 1 t) r')
    (outsAt0 m c (t.val - 1) (Nat.lt_of_le_of_lt (Nat.sub_le _ _) t.isLt))
    (fun r' l' => Cert.Hist.imgCnt (m ((c.tc : Thread nD τ).loc main_arg0)) (m ((c.tc : Thread nD τ).loc main_arg1)) r' l' b)
    (fun r' l' => Cert.Hist.imgCnt_le _ _ r' l' b) (fun r' u' l' => point_rows m c t b hb r' u' l') u r l]

/-- One more image of a half: the count over the first n % 16 + 1 images is the count over the first
    n % 16 plus image n's. -/
theorem step_count (yp yt : IVec Cert.Hist.SArr 32) (r : Fin 3) (l : Fin 21) (n : ℕ) (o : Fin 2) (ho : o.val = n / 16)
    (b : Fin 32) (hb : b.val = n) :
    Cert.Hist.partCnt yp yt r l o (n % 16 + 1) = Cert.Hist.partCnt yp yt r l o (n % 16) + Cert.Hist.imgCnt yp yt r l b := by
  have hi : n % 16 < 16 := Nat.mod_lt _ (by norm_num)
  rw [Cert.Hist.partCnt_succ yp yt r l o (n % 16) hi]
  have e : Cert.Hist.imgOf o ⟨n % 16, hi⟩ = b := Fin.ext (by show 16 * o.val + n % 16 = b.val; omega)
  rw [e]

/-- After the point numbered n the count block holds the counts over the first n % 16 + 1 images of half n / 16. -/
theorem outsAt_eq (c : Dev nD) : ∀ (n : ℕ) (hn : n < cfg0.N) (o : Fin 2) (ho : o.val = n / 16) (u : Fin 1) (r : Fin 3) (l : Fin 21),
    (outsAt0 m c n hn : IVec S1x3x21 32) (ix3 u r l)
      = BitVec.ofNat 32 (Cert.Hist.partCnt (m ((c.tc : Thread nD τ).loc main_arg0)) (m ((c.tc : Thread nD τ).loc main_arg1)) r l o (n % 16 + 1)) := by
  intro n
  induction n with
  | zero =>
    intro hn o ho u r l
    have hN : cfg0.N = 32 := N_0
    refine (point_A m c ⟨0, hn⟩ rfl ⟨0, by omega⟩ rfl u r l).trans ?_
    rw [step_count _ _ r l 0 o ho ⟨0, by omega⟩ rfl, Cert.Hist.partCnt_zero, Nat.zero_add]
  | succ k ih =>
    intro hn o ho u r l
    have hN : cfg0.N = 32 := N_0
    have hk : k + 1 < 32 := by omega
    by_cases h0 : (k + 1) % 16 = 0
    · refine (point_A m c ⟨k + 1, hn⟩ h0 ⟨k + 1, hk⟩ rfl u r l).trans ?_
      rw [step_count _ _ r l (k + 1) o ho ⟨k + 1, hk⟩ rfl, h0, Cert.Hist.partCnt_zero, Nat.zero_add]
    · refine (point_B m c ⟨k + 1, hn⟩ h0 ⟨k + 1, hk⟩ rfl u r l).trans ?_
      show (outsAt0 m c k _ : IVec S1x3x21 32) (ix3 u r l) + _ = _
      have ho' : o.val = k / 16 := by omega
      have e : k % 16 + 1 = (k + 1) % 16 := by omega
      rw [ih (Nat.lt_of_succ_lt hn) o ho' u r l, ← BitVec.ofNat_add, e, ← step_count _ _ r l (k + 1) o ho ⟨k + 1, hk⟩ rfl]

/-! ## From the blocks to the array -/

/-- At the last point of a half the count block holds the half's counts. -/
theorem flush_point (c : Dev nD) (t : Fin cfg0.N) (h15 : t.val % 16 = 15) (o : Fin 2) (ho : o.val = t.val / 16)
    (j : S1x3x21.Idx) :
    (outsAt0 m c t.val t.isLt : IVec S1x3x21 32) j
      = BitVec.ofNat 32 (Cert.Hist.halfCnt (m ((c.tc : Thread nD τ).loc main_arg0)) (m ((c.tc : Thread nD τ).loc main_arg1))
          (j 1) (j 2) o) := by
  have e16 : t.val % 16 + 1 = 16 := by omega
  have h := outsAt_eq m c t.val t.isLt o ho (j 0) (j 1) (j 2)
  have h2 : BitVec.ofNat 32 (Cert.Hist.partCnt (m ((c.tc : Thread nD τ).loc main_arg0)) (m ((c.tc : Thread nD τ).loc main_arg1))
        (j 1) (j 2) o (t.val % 16 + 1))
      = BitVec.ofNat 32 (Cert.Hist.halfCnt (m ((c.tc : Thread nD τ).loc main_arg0)) (m ((c.tc : Thread nD τ).loc main_arg1))
        (j 1) (j 2) o) :=
    (congrArg (fun k => BitVec.ofNat 32 (Cert.Hist.partCnt (m ((c.tc : Thread nD τ).loc main_arg0))
      (m ((c.tc : Thread nD τ).loc main_arg1)) (j 1) (j 2) o k)) e16).trans
      (congrArg (BitVec.ofNat 32) (Cert.Hist.partCnt_full _ _ (j 1) (j 2) o))
  exact (congrArg (outsAt0 m c t.val t.isLt : IVec S1x3x21 32) (eq_ix3 j)).trans (h.trans h2)

/-- The count array read through the count window at point t: entry (u, r, l) of the block is entry
    (t / 16, r, l) of the array. -/
theorem G2m_blk (c : Dev nD) (t : Fin cfg0.N) (o : Fin 2) (ho : o.val = t.val / 16) (j : S1x3x21.Idx) :
    G2m m c (((cfg0.win 2).blk t).view.emb j)
      = BitVec.ofNat 32 (Cert.Hist.halfCnt (m ((c.tc : Thread nD τ).loc main_arg0)) (m ((c.tc : Thread nD τ).loc main_arg1))
          (j 1) (j 2) o) := by
  obtain ⟨-, -, -, -, -, -, e0, e1, e2⟩ := idx_facts t
  have hj0 : (j 0).val < 1 := (j 0).isLt
  have hE0 : (((cfg0.win 2).blk t).view.emb j) 0 = o :=
    Fin.ext (by show win0_2.index t (0 : Fin 3) * 1 + 1 * (j 0).val = o.val; rw [e0]; omega)
  have hE1 : (((cfg0.win 2).blk t).view.emb j) 1 = (j 1 : Fin 3) :=
    Fin.ext (by show win0_2.index t (1 : Fin 3) * 3 + 1 * (j 1).val = (j 1).val; rw [e1]; omega)
  have hE2 : (((cfg0.win 2).blk t).view.emb j) 2 = (j 2 : Fin 21) :=
    Fin.ext (by show win0_2.index t (2 : Fin 3) * 21 + 1 * (j 2).val = (j 2).val; rw [e2]; omega)
  show BitVec.ofNat 32 (Cert.Hist.halfCnt (m ((c.tc : Thread nD τ).loc main_arg0)) (m ((c.tc : Thread nD τ).loc main_arg1))
      ((((cfg0.win 2).blk t).view.emb j) 1) ((((cfg0.win 2).blk t).view.emb j) 2) ((((cfg0.win 2).blk t).view.emb j) 0)) = _
  exact congrArg (BitVec.ofNat 32) (congr (congr (congrArg
    (Cert.Hist.halfCnt (m ((c.tc : Thread nD τ).loc main_arg0)) (m ((c.tc : Thread nD τ).loc main_arg1))) hE1) hE2) hE0)

/-- What a flushing point writes back is its block of the count array. -/
theorem flushed_eq (c : Dev nD) (t : Fin cfg0.N) (hf : (cfg0.win 2).flush t = true) :
    (dats m 0 c).flushed 2 t = ((cfg0.win 2).blk t).view.read (Elt Ideal) (G2m m c) := by
  have h15 : t.val % 16 = 15 := (flush0_2 t).mp hf
  have hN : t.val < 32 := lt_of_lt_of_eq t.isLt (show cfg0.N = 32 from N_0)
  show (cfg0.win 2).cut (grid0.coords t) ((dats m 0 c).after 2 t) = _
  rw [after0_2]
  funext j
  rw [View.read_apply]
  exact (flush_point m c t h15 ⟨t.val / 16, by omega⟩ rfl j).trans (G2m_blk m c t ⟨t.val / 16, by omega⟩ rfl j).symm

/-- An index of the count array is in point t's block exactly when each coordinate is in the block's range. -/
theorem mem_blk (t : Fin cfg0.N) (i : S2x3x21.Idx) :
    i ∈ ((cfg0.win 2).blk t).view.set ↔ ∀ a : Fin 3, win0_2.index t a * S1x3x21.size a ≤ (i a).val
      ∧ (i a).val < win0_2.index t a * S1x3x21.size a + S1x3x21.size a := by
  show i ∈ ((View.whole main_v0).slice (win0_2.rect t)).set ↔ _
  rw [View.set_slice_whole, Rect.mem_set_unit]
  exact Iff.rfl

/-- Every entry of the count array is in the block of its half's last point. -/
theorem covered (i : S2x3x21.Idx) :
    ∃ t : Fin cfg0.N, (cfg0.win 2).flush t = true ∧ i ∈ ((cfg0.win 2).blk t).view.set := by
  have hi0 : (i 0).val < 2 := (i 0).isLt
  have hi1 : (i 1).val < 3 := (i 1).isLt
  have hi2 : (i 2).val < 21 := (i 2).isLt
  have hN : cfg0.N = 32 := N_0
  have ht : 16 * (i 0).val + 15 < cfg0.N := by omega
  obtain ⟨-, -, -, -, -, -, e0, e1, e2⟩ := idx_facts ⟨16 * (i 0).val + 15, ht⟩
  have e0' : win0_2.index ⟨16 * (i 0).val + 15, ht⟩ (0 : Fin 3) = (16 * (i 0).val + 15) / 16 := e0
  refine ⟨⟨16 * (i 0).val + 15, ht⟩, (flush0_2 _).mpr (by show (16 * (i 0).val + 15) % 16 = 15; omega), ?_⟩
  rw [mem_blk]
  intro a
  match a with
  | ⟨0, _⟩ =>
    show win0_2.index ⟨16 * (i 0).val + 15, ht⟩ (0 : Fin 3) * 1 ≤ (i 0).val
      ∧ (i 0).val < win0_2.index ⟨16 * (i 0).val + 15, ht⟩ (0 : Fin 3) * 1 + 1
    rw [e0']; omega
  | ⟨1, _⟩ =>
    show win0_2.index ⟨16 * (i 0).val + 15, ht⟩ (1 : Fin 3) * 3 ≤ (i 1).val
      ∧ (i 1).val < win0_2.index ⟨16 * (i 0).val + 15, ht⟩ (1 : Fin 3) * 3 + 3
    rw [e1]; omega
  | ⟨2, _⟩ =>
    show win0_2.index ⟨16 * (i 0).val + 15, ht⟩ (2 : Fin 3) * 21 ≤ (i 2).val
      ∧ (i 2).val < win0_2.index ⟨16 * (i 0).val + 15, ht⟩ (2 : Fin 3) * 21 + 21
    rw [e2]; omega

/-- After the run the count array holds, per half of the batch, row and class, the half's count. -/
theorem final2 (c : Dev nD) : (dats m 0 c).arrAt 2 cfg0.N = G2m m c :=
  (dats m 0 c).arrAt_eq_of_cover 2 (G2m m c) (flushed_eq m c) (covered)

end Cert.KernelIdeal.HistValue

end
-- ==== Proof.KernelTail.lean ====
/-
  The arithmetic after the region.

  When the region ends, the kernel's count array holds, for each half o of the batch, each row r (true labels,
  predicted labels, both) and each class l + 1, the number of pixels of that half counted in (r, l), as a 32-bit
  word. The program then adds the two halves word by word, converts the sums to reals, takes the three rows apart
  as vectors over the classes, and from them computes the per-class intersection over union and its mean over the
  classes that occur.

  Each half's count is at most 2^24 (16 images of 2^20 pixels), so the sum of two is below 2^31: the word addition
  does not wrap and the signed reading of the sum is the sum of the two natural numbers. Hence row r, converted,
  is the count vector of row r over the whole batch, and what follows is, term for term, the arithmetic that
  `Cert.Hist.iouOf` and `Cert.Hist.miouOf` name.
-/
import proofs.«405121_j41497974014422_3_alg».proof.Proof.KernelArray
import Idealize.ShloMosaic.Lib.Pipeline.Value
import Idealize.ShloMosaic.Lib.StableHlo.Run
import Idealize.ShloMosaic.Lib.StableHlo.Predicate
import Idealize.ShloMosaic.PureOps.Reduce

set_option maxRecDepth 16384

noncomputable section

namespace Cert.KernelIdeal.HistValue

open Idealize.ShloMosaic Idealize.ShloMosaic.TcCoe Idealize.SL.Sem Idealize.ShloMosaic.ValueIdx
open Idealize.ShloMosaic.StableHlo
open Cert.KernelIdeal Cert.KernelIdeal.Gen

/-! ## The three count rows -/

/-- The sum of the two halves' words at (r, l), read as a signed word, is the sum of the two counts: each count
    is at most 2^24, so neither the word addition nor the signed reading wraps. -/
theorem reduce_apply (A : IVec S2x3x21 32) (n : Fin 2 → Fin 3 → Fin 21 → ℕ)
    (hA : ∀ o r l, A (ix3 o r l) = BitVec.ofNat 32 (n o r l)) (hn : ∀ o r l, n o r l ≤ 16777216)
    (hred : S2x3x21.ReducesTo [0] S3x21) (hs : 0 < S_.numel) (r : Fin 3) (l : Fin 21) :
    (Host.reduce IntOp.addi A (constantI S_ 32 0#32) hred hs (ix2 r l)).toInt = ((n 0 r l + n 1 r l : ℕ) : ℤ) := by
  have hR : S2x3x21.Reduces [0] S3x21 := by decide
  have e : Host.reduce IntOp.addi A (constantI S_ 32 0#32) hred hs (ix2 r l)
      = (Finset.univ : Finset (Fin 2)).fold IntOp.addi 0#32 (fun k => A (ix3 k r l)) := by
    refine (Host.reduce_eq_fold_single IntOp.addi A _ hred hR hs (ix2 r l)).trans ?_
    show (Finset.univ : Finset (Fin 2)).fold IntOp.addi 0#32 (A ∘ hR.lift (ix2 r l)) = _
    congr 1
    funext k
    show A (hR.lift (ix2 r l) k) = A (ix3 k r l)
    congr 1
    funext d
    match d with
    | ⟨0, _⟩ => rfl
    | ⟨1, _⟩ => rfl
    | ⟨2, _⟩ => rfl
  have h0 := hn 0 r l
  have h1 := hn 1 r l
  have hsum : ∑ k : Fin 2, (A (ix3 k r l)).toNat = n 0 r l + n 1 r l := by
    rw [Fin.sum_univ_two, hA, hA, BitVec.toNat_ofNat, BitVec.toNat_ofNat, Nat.mod_eq_of_lt (by omega), Nat.mod_eq_of_lt (by omega)]
  have ht : (Host.reduce IntOp.addi A (constantI S_ 32 0#32) hred hs (ix2 r l)).toNat = n 0 r l + n 1 r l := by
    rw [e, StableHlo.Predicate.toNat_fold_addi _ _ (by rw [hsum]; omega), hsum]
  rw [StableHlo.Predicate.toInt_eq_toNat_of_lt (by rw [ht]; omega), ht]

/-- Row `off` of the count array summed over the two halves and converted to reals, as a vector over the classes. -/
def rowOf (A : IVec S2x3x21 32) (off : ℕ) (hsl : S3x21.Slices ![off, 0] S1x21) : FVec Ideal S21 .f32 :=
  shapeCast S21 (extractStridedSlice S1x21 ![off, 0]
    (sitofp .f32 (Host.reduce IntOp.addi A (constantI S_ 32 0#32) Facts₀.reducesTo_S2x3x21_S3x21_d0 Facts₀.h_S_) : FVec Ideal S3x21 .f32) hsl)
    Facts₀.shapeCasts_S1x21_S21

/-- Entry l of row r is the sum of the two halves' counts of (r, l), as a real. -/
theorem rowOf_apply (A : IVec S2x3x21 32) (n : Fin 2 → Fin 3 → Fin 21 → ℕ)
    (hA : ∀ o r l, A (ix3 o r l) = BitVec.ofNat 32 (n o r l)) (hn : ∀ o r l, n o r l ≤ 16777216) (r : Fin 3)
    (hsl : S3x21.Slices ![r.val, 0] S1x21) (l : S21.Idx) :
    rowOf A r.val hsl l = (((n 0 r (l 0) + n 1 r (l 0) : ℕ) : ℝ) : EReal) := by
  unfold rowOf
  refine (shapeCast_dropUnit_apply ![21] _ Facts₀.shapeCasts_S1x21_S21 l).trans ?_
  refine (extractStridedSlice_apply _ _ hsl _ (ix2 r (l 0)) (fun a => ?_)).trans ?_
  · match a with
    | ⟨0, _⟩ => show r.val = r.val + 0; omega
    | ⟨1, _⟩ => show (l 0).val = 0 + (l 0).val; omega
  · show (((Host.reduce IntOp.addi A (constantI S_ 32 0#32) Facts₀.reducesTo_S2x3x21_S3x21_d0 Facts₀.h_S_ (ix2 r (l 0))).toInt : ℝ) : EReal) = _
    rw [reduce_apply A n hA hn Facts₀.reducesTo_S2x3x21_S3x21_d0 Facts₀.h_S_ r (l 0)]
    push_cast
    rfl

/-- Row r of the kernel's count array, summed and converted, is the count vector of row r. -/
theorem rowOf_G2 (yp yt : IVec Cert.Hist.SArr 32) (r : Fin 3) (hsl : S3x21.Slices ![r.val, 0] S1x21) :
    rowOf (Cert.Hist.G2 yp yt) r.val hsl = Cert.Hist.cntVec yp yt r := by
  funext l
  exact rowOf_apply (Cert.Hist.G2 yp yt) (fun o r l => Cert.Hist.halfCnt yp yt r l o) (fun _ _ _ => rfl)
    (fun o r l => Cert.Hist.halfCnt_le yp yt r l o) r hsl l

/-! ## The two results as functions of the count vectors -/

variable (m : (ℓ : Loc nD τ sig) → Buf (Elt Ideal) ℓ)

/-- The count array, as the operations after the region read it: the library's contents of output window 2 at
    the end of the grid, which is the array of the halves' counts. -/
theorem read_counts (c : Dev nD) :
    Pipeline.withArrays (cfgs 0).spec c (V0 m c) (fun w => (dats m 0 c).arrAt w (cfgs 0).N) (Proc.devRef .tc main_v0)
      = G2m m c :=
  (Pipeline.withArrays_arr spec0 launch0.win.arr_inj c _ _ 2).trans (final2 m c)

set_option maxHeartbeats 4000000 in
/-- The mean over the classes that occur, as the operations after the region leave it: the three rows are the
    count vectors, and the rest is `miouOf` unfolded. -/
theorem tail_miou (c : Dev nD) :
    Pipeline.afterTail₀ cfgs (dats m) 0 (V0 m) [hostOps1] c main_v23
      = Cert.Hist.miouOf Facts₀.bcast_S_S21 Facts₀.reducesTo_S21_S_d0 Facts₀.h_S_
          (Cert.Hist.cntVec (m ((c.tc : Thread nD τ).loc main_arg0)) (m ((c.tc : Thread nD τ).loc main_arg1)) 0)
          (Cert.Hist.cntVec (m ((c.tc : Thread nD τ).loc main_arg0)) (m ((c.tc : Thread nD τ).loc main_arg1)) 1)
          (Cert.Hist.cntVec (m ((c.tc : Thread nD τ).loc main_arg0)) (m ((c.tc : Thread nD τ).loc main_arg1)) 2) := by
  have hA := read_counts m c
  unfold Pipeline.afterTail₀
  show StableHlo.after (hostOps1 (F := Ideal)) _ (Proc.devRef .tc main_v23) = _
  after_results
  rw [hA]
  rw [← rowOf_G2 _ _ 0 Facts₀.slices_S3x21_S1x21_0_0, ← rowOf_G2 _ _ 1 Facts₀.slices_S3x21_S1x21_1_0,
    ← rowOf_G2 _ _ 2 Facts₀.slices_S3x21_S1x21_2_0]
  rfl

set_option maxHeartbeats 4000000 in
/-- The per-class values likewise: `iouOf` of the three count vectors. -/
theorem tail_iou (c : Dev nD) :
    Pipeline.afterTail₀ cfgs (dats m) 0 (V0 m) [hostOps1] c main_v15
      = Cert.Hist.iouOf Facts₀.bcast_S_S21
          (Cert.Hist.cntVec (m ((c.tc : Thread nD τ).loc main_arg0)) (m ((c.tc : Thread nD τ).loc main_arg1)) 0)
          (Cert.Hist.cntVec (m ((c.tc : Thread nD τ).loc main_arg0)) (m ((c.tc : Thread nD τ).loc main_arg1)) 1)
          (Cert.Hist.cntVec (m ((c.tc : Thread nD τ).loc main_arg0)) (m ((c.tc : Thread nD τ).loc main_arg1)) 2) := by
  have hA := read_counts m c
  unfold Pipeline.afterTail₀
  show StableHlo.after (hostOps1 (F := Ideal)) _ (Proc.devRef .tc main_v15) = _
  after_results
  rw [hA]
  rw [← rowOf_G2 _ _ 0 Facts₀.slices_S3x21_S1x21_0_0, ← rowOf_G2 _ _ 1 Facts₀.slices_S3x21_S1x21_1_0,
    ← rowOf_G2 _ _ 2 Facts₀.slices_S3x21_S1x21_2_0]
  rfl

/-! ## The run -/

/-- Every fair run of the idealized kernel program from memory m ends with the mean at `main_v23` and the
    per-class values at `main_v15` computed from the count vectors of the two argument arrays, and with the
    argument arrays as they were. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v23)
          = Cert.Hist.miouOf Facts₀.bcast_S_S21 Facts₀.reducesTo_S21_S_d0 Facts₀.h_S_
              (Cert.Hist.cntVec (m ((c.tc : Thread nD τ).loc main_arg0)) (m ((c.tc : Thread nD τ).loc main_arg1)) 0)
              (Cert.Hist.cntVec (m ((c.tc : Thread nD τ).loc main_arg0)) (m ((c.tc : Thread nD τ).loc main_arg1)) 1)
              (Cert.Hist.cntVec (m ((c.tc : Thread nD τ).loc main_arg0)) (m ((c.tc : Thread nD τ).loc main_arg1)) 2)
      ∧ r.2.mem ((c.tc : Thread nD τ).loc main_v15)
          = Cert.Hist.iouOf Facts₀.bcast_S_S21
              (Cert.Hist.cntVec (m ((c.tc : Thread nD τ).loc main_arg0)) (m ((c.tc : Thread nD τ).loc main_arg1)) 0)
              (Cert.Hist.cntVec (m ((c.tc : Thread nD τ).loc main_arg0)) (m ((c.tc : Thread nD τ).loc main_arg1)) 1)
              (Cert.Hist.cntVec (m ((c.tc : Thread nD τ).loc main_arg0)) (m ((c.tc : Thread nD τ).loc main_arg1)) 2)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v23 (Pipeline.mem_restRefs_of main_v23 rfl (by decide))).trans (tail_miou m c),
      ((h c).2 main_v15 (Pipeline.mem_restRefs_of main_v15 rfl (by decide))).trans (tail_iou m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.HistValue

end
-- ==== Proof.LibScatter1.lean ====
/-
  A rank-1 scatter read at an index. The operand is a table of R entries, the scatter indices an
  [N × 1] column of start positions, the updates a vector of N entries, one window element per update
  (no window axes; the one operand axis inserted and named by the index map; the index vector on axis 1).
  Update n lands on entry (idx n) read signed, and is dropped when that is outside [0, R).
  Two readings: with the body "take the update" and pairwise distinct in-range targets, entry g n ends at
  update n; with the body "add" from a zero table of one-updates, entry e ends at the number of updates
  whose target is e.
-/
import Idealize.ShloMosaic.PureOps
import Idealize.ShloMosaic.Lib.StableHlo.Predicate

noncomputable section

namespace Idealize.ShloMosaic.RouteLib

open Idealize.ShloMosaic Idealize.ShloMosaic.StableHlo.Predicate

/-! ## Left folds of "replace one entry" steps -/

section Folds

variable {κ ι β : Type} {dι : DecidableEq ι}

/-- A fold of steps each replacing the entry at its own target leaves an entry no step targets as it was. -/
theorem foldl_untouched (T : κ → ι) (nv : (ι → β) → κ → β) (l : List κ) (r : ι → β) (i : ι)
    (h : ∀ k ∈ l, T k ≠ i) :
    l.foldl (fun r k => fun i' => if i' = T k then nv r k else r i') r i = r i := by
  induction l generalizing r with
  | nil => rfl
  | cons a l ih =>
    rw [List.foldl_cons, ih _ (fun k hk => h k (List.mem_cons_of_mem _ hk))]
    exact if_neg (fun e => h a List.mem_cons_self e.symm)

/-- Steps that write their own value at pairwise distinct targets: after the fold over a list without repeats,
    the target of a member holds that member's value. -/
theorem foldl_set_hit (T : κ → ι) (v : κ → β) (hT : Function.Injective T) (l : List κ) (hnd : l.Nodup)
    (r : ι → β) (k : κ) (hk : k ∈ l) :
    l.foldl (fun r k => fun i' => if i' = T k then v k else r i') r (T k) = v k := by
  induction l generalizing r with
  | nil => exact absurd hk List.not_mem_nil
  | cons a l ih =>
    rw [List.foldl_cons]
    rw [List.nodup_cons] at hnd
    rcases List.mem_cons.1 hk with hka | hk'
    · subst hka
      rw [foldl_untouched T (fun _ k => v k) l _ (T k) (fun b hb e => hnd.1 (hT e ▸ hb))]
      exact if_pos rfl
    · exact ih hnd.2 _ hk'

/-- Steps that add one at their target: after the fold, an entry has grown by the number of members whose target it is. -/
theorem foldl_add_count (T : κ → ι) (l : List κ) (r : ι → BitVec 32) (i : ι) :
    l.foldl (fun r k => fun i' => if i' = T k then r (T k) + 1#32 else r i') r i
      = r i + BitVec.ofNat 32 (l.countP fun k => decide (T k = i)) := by
  induction l generalizing r with
  | nil => simp
  | cons a l ih =>
    rw [List.foldl_cons, ih, List.countP_cons]
    by_cases h : T a = i
    · subst h
      rw [if_pos rfl, if_pos (by simp), BitVec.ofNat_add, BitVec.add_assoc, BitVec.add_comm (BitVec.ofNat 32 _) (BitVec.ofNat 32 1)]
    · rw [if_neg (fun e => h e.symm), if_neg (by simpa using h), Nat.add_zero]

/-- The members of `List.finRange M` with a property number the set of them. -/
theorem countP_finRange (M : Nat) (p : Fin M → Prop) [DecidablePred p] :
    (List.finRange M).countP (fun k => decide (p k)) = (Finset.univ.filter p).card := by
  simp [Finset.card, Fin.univ_def, List.countP_eq_length_filter]

end Folds

/-! ## The dimension record read at the literal axes -/

section Dims

variable {R N w : Nat} (d : ScatterDims ⟨1, ![R]⟩ ⟨2, ![N, 1]⟩ ⟨1, ![N]⟩)

/-- The start index of update j is read at row (j 0) of the index column. -/
theorem siIdx_eq (hsd : d.scatterDimsToOperandDims = [0]) (hivd : d.indexVectorDim = 1)
    (j : (⟨1, ![N]⟩ : Shape).Idx) (c : Fin d.scatterDimsToOperandDims.length) : d.siIdx j c = ixP (j 0) := by
  funext b
  match b with
  | ⟨0, _⟩ =>
    unfold ScatterDims.siIdx
    rw [dif_neg (by rw [hivd]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    show c.val = 0
    have hlen : d.scatterDimsToOperandDims.length = 1 := by rw [hsd]; rfl
    have := c.isLt
    omega

/-- The window start on the one operand axis is the start index, read signed. -/
theorem start_eq (hsd : d.scatterDimsToOperandDims = [0]) (hivd : d.indexVectorDim = 1)
    (j : (⟨1, ![N]⟩ : Shape).Idx) (idx : IVec ⟨2, ![N, 1]⟩ w) (a : Fin 1) :
    d.start j idx a = (idx (ixP (j 0))).toInt := by
  have ha : a = 0 := Subsingleton.elim _ _
  subst ha
  have hm : (0 : Fin 1) ∈ d.scatterDimsToOperandDims := by rw [hsd]; exact List.mem_singleton.mpr rfl
  unfold ScatterDims.start
  rw [dif_pos hm, siIdx_eq d hsd hivd]
  rfl

/-- The one operand axis is inserted: the window coordinate on it is 0. -/
theorem window_eq (hiw : d.insertedWindowDims = [0]) (j : (⟨1, ![N]⟩ : Shape).Idx) (a : Fin 1) :
    d.window j a = 0 := by
  have ha : a = 0 := Subsingleton.elim _ _
  subst ha
  have hk : (0 : Fin 1) ∉ d.sKept := by
    intro h
    have h2 := (List.mem_filter.1 h).2
    rw [hiw] at h2
    simp at h2
  unfold ScatterDims.window
  rw [dif_neg hk]

/-- An update whose start index, read signed, is the position t of the table lands on entry t. -/
theorem resultIdx_eq (hiw : d.insertedWindowDims = [0])
    (hsd : d.scatterDimsToOperandDims = [0]) (hivd : d.indexVectorDim = 1)
    (j : (⟨1, ![N]⟩ : Shape).Idx) (idx : IVec ⟨2, ![N, 1]⟩ w) (t : Fin R)
    (ht : (idx (ixP (j 0))).toInt = (t.val : Int)) :
    d.resultIdx? j idx = some (Shape.Idx.ofFin t) := by
  have hsz : ∀ a : Fin 1, (⟨1, ![R]⟩ : Shape).size a = R := fun a => by
    have ha : a = 0 := Subsingleton.elim _ _
    subst ha; rfl
  have hval : ∀ a : Fin 1, d.start j idx a + (d.window j a : Int) = (t.val : Int) := fun a => by
    rw [start_eq d hsd hivd, window_eq d hiw, ht]; simp
  have h : ∀ a, 0 ≤ d.start j idx a + d.window j a ∧ d.start j idx a + d.window j a < (⟨1, ![R]⟩ : Shape).size a := by
    intro a
    rw [hval a, hsz a]
    have := t.isLt
    omega
  unfold ScatterDims.resultIdx?
  rw [dif_pos h]
  congr 1
  funext a
  apply Fin.ext
  show (d.start j idx a + d.window j a).toNat = t.val
  rw [hval a]
  simp

end Dims

/-! ## Rank-1 indices and where the updates land -/

section Land

variable {R N w : Nat}

/-- A rank-1 index is its one coordinate. -/
def idxEquiv (N : Nat) : Fin N ≃ (⟨1, ![N]⟩ : Shape).Idx where
  toFun := Shape.Idx.ofFin
  invFun := fun j => j (0 : Fin 1)
  left_inv := fun k => Shape.Idx.ofFin_zero k
  right_inv := fun j => (Shape.Idx.eq_ofFin j).symm

theorem ofFin_injective {n : Nat} : Function.Injective (Shape.Idx.ofFin (n := n)) := fun a b h => by
  have h0 := congrFun h (0 : Fin 1)
  rwa [Shape.Idx.ofFin_zero, Shape.Idx.ofFin_zero] at h0

/-- Every update lands: the update at row-major position k goes to entry g of its coordinate. -/
theorem resultIdx_rowMajor (d : ScatterDims ⟨1, ![R]⟩ ⟨2, ![N, 1]⟩ ⟨1, ![N]⟩)
    (hiw : d.insertedWindowDims = [0])
    (hsd : d.scatterDimsToOperandDims = [0]) (hivd : d.indexVectorDim = 1) (idx : IVec ⟨2, ![N, 1]⟩ w)
    (g : Fin N → Fin R) (hg : ∀ n, (idx (ixP n)).toInt = ((g n).val : Int)) (k : Fin (⟨1, ![N]⟩ : Shape).numel) :
    d.resultIdx? ((⟨1, ![N]⟩ : Shape).rowMajor.symm k) idx
      = some (Shape.Idx.ofFin (g (((⟨1, ![N]⟩ : Shape).rowMajor.symm k) (0 : Fin 1)))) :=
  resultIdx_eq d hiw hsd hivd _ idx _ (hg _)

end Land

/-! ## The two readings -/

variable {α : Type} {R N w : Nat}

/-- With the body "take the update" and targets g, in range and pairwise distinct: entry g n holds update n. -/
theorem scatter_set_hit (d : ScatterDims ⟨1, ![R]⟩ ⟨2, ![N, 1]⟩ ⟨1, ![N]⟩)
    (huw : d.updateWindowDims = []) (hiw : d.insertedWindowDims = [0])
    (hsd : d.scatterDimsToOperandDims = [0]) (hivd : d.indexVectorDim = 1)
    (x : (⟨1, ![R]⟩ : Shape).Idx → α) (idx : IVec ⟨2, ![N, 1]⟩ w) (upd : (⟨1, ![N]⟩ : Shape).Idx → α)
    (g : Fin N → Fin R) (hg : ∀ n, (idx (ixP n)).toInt = ((g n).val : Int)) (hinj : Function.Injective g) (n : Fin N) :
    Host.scatter d (fun _ b => b) x idx upd (Shape.Idx.ofFin (g n)) = upd (Shape.Idx.ofFin n) := by
  unfold Host.scatter
  have hTinj : Function.Injective (fun k : Fin (⟨1, ![N]⟩ : Shape).numel =>
      (Shape.Idx.ofFin (g (((⟨1, ![N]⟩ : Shape).rowMajor.symm k) (0 : Fin 1))) : (⟨1, ![R]⟩ : Shape).Idx)) := fun a b h => by
    have h1 := hinj (ofFin_injective h)
    exact (Equiv.injective _) ((Shape.Idx.eq_ofFin _).trans ((congrArg Shape.Idx.ofFin h1).trans (Shape.Idx.eq_ofFin _).symm))
  refine (congrFun (List.foldl_ext _ (fun r k => fun i' =>
      if i' = Shape.Idx.ofFin (g (((⟨1, ![N]⟩ : Shape).rowMajor.symm k) (0 : Fin 1))) then upd ((⟨1, ![N]⟩ : Shape).rowMajor.symm k) else r i') x ?_) _).trans ?_
  · intro r k _
    dsimp only
    rw [resultIdx_rowMajor d hiw hsd hivd idx g hg k]
  · have hk0 : (⟨1, ![N]⟩ : Shape).rowMajor.symm ((⟨1, ![N]⟩ : Shape).rowMajor (Shape.Idx.ofFin n)) = Shape.Idx.ofFin n :=
      Equiv.symm_apply_apply _ _
    have e1 : (Shape.Idx.ofFin (g n) : (⟨1, ![R]⟩ : Shape).Idx)
        = Shape.Idx.ofFin (g (((⟨1, ![N]⟩ : Shape).rowMajor.symm ((⟨1, ![N]⟩ : Shape).rowMajor (Shape.Idx.ofFin n))) (0 : Fin 1))) := by
      rw [hk0, Shape.Idx.ofFin_zero]
    have e2 : upd (Shape.Idx.ofFin n)
        = upd ((⟨1, ![N]⟩ : Shape).rowMajor.symm ((⟨1, ![N]⟩ : Shape).rowMajor (Shape.Idx.ofFin n))) := by
      rw [hk0]
    rw [e1, e2]
    exact foldl_set_hit _ (fun k => upd ((⟨1, ![N]⟩ : Shape).rowMajor.symm k)) hTinj (List.finRange _) (List.nodup_finRange _) x
      ((⟨1, ![N]⟩ : Shape).rowMajor (Shape.Idx.ofFin n)) (List.mem_finRange _)

/-- With the body "add", a zero table and updates all one: entry e counts the updates whose target is e. -/
theorem scatter_addi_count (d : ScatterDims ⟨1, ![R]⟩ ⟨2, ![N, 1]⟩ ⟨1, ![N]⟩)
    (huw : d.updateWindowDims = []) (hiw : d.insertedWindowDims = [0])
    (hsd : d.scatterDimsToOperandDims = [0]) (hivd : d.indexVectorDim = 1)
    (x : IVec ⟨1, ![R]⟩ 32) (hx : ∀ i, x i = 0#32) (idx : IVec ⟨2, ![N, 1]⟩ w)
    (upd : IVec ⟨1, ![N]⟩ 32) (hu : ∀ n, upd n = 1#32)
    (g : Fin N → Fin R) (hg : ∀ n, (idx (ixP n)).toInt = ((g n).val : Int)) (hN : N < 2 ^ 32) (e : Fin R) :
    (Host.scatter d IntOp.addi x idx upd (Shape.Idx.ofFin e)).toNat = (Finset.univ.filter fun n : Fin N => g n = e).card := by
  unfold Host.scatter
  refine (congrArg BitVec.toNat (congrFun (List.foldl_ext _ (fun r k => fun i' =>
      if i' = Shape.Idx.ofFin (g (((⟨1, ![N]⟩ : Shape).rowMajor.symm k) (0 : Fin 1)))
      then r (Shape.Idx.ofFin (g (((⟨1, ![N]⟩ : Shape).rowMajor.symm k) (0 : Fin 1)))) + 1#32 else r i') x ?_) _)).trans ?_
  · intro r k _
    rw [resultIdx_rowMajor d hiw hsd hivd idx g hg k, hu]
    rfl
  · rw [foldl_add_count (fun k : Fin (⟨1, ![N]⟩ : Shape).numel =>
        (Shape.Idx.ofFin (g (((⟨1, ![N]⟩ : Shape).rowMajor.symm k) (0 : Fin 1))) : (⟨1, ![R]⟩ : Shape).Idx)),
      hx, BitVec.zero_add, BitVec.toNat_ofNat, countP_finRange]
    have hcard : (Finset.univ.filter fun k : Fin (⟨1, ![N]⟩ : Shape).numel =>
          (Shape.Idx.ofFin (g (((⟨1, ![N]⟩ : Shape).rowMajor.symm k) (0 : Fin 1))) : (⟨1, ![R]⟩ : Shape).Idx) = Shape.Idx.ofFin e).card
        = (Finset.univ.filter fun n : Fin N => g n = e).card :=
      Finset.card_equiv ((⟨1, ![N]⟩ : Shape).rowMajor.symm.trans (idxEquiv N).symm) (fun k => by
        simp only [Finset.mem_filter, Finset.mem_univ, true_and]
        constructor
        · intro h; exact ofFin_injective h
        · intro h; exact congrArg Shape.Idx.ofFin h)
    rw [hcard]
    exact Nat.mod_eq_of_lt (lt_of_le_of_lt (Finset.card_le_univ _) (by simpa using hN))

end Idealize.ShloMosaic.RouteLib

end
-- ==== Proof.RefCounts.lean ====
/-
  The reference's three histograms are the shared count vectors.

  Each histogram is a scatter of ones into a zero table of 23 entries, indexed by a column of 33554432
  label words (the flattened label arrays; a negative word is shifted up by 23). Entry e of such a
  scatter is the number of positions whose index word, read signed, is e. Entries 1 .. 21 are kept.
  With non-negative labels the shift never happens, a word read signed is l + 1 exactly when it is the
  class word of l, and the flat positions correspond one to one to the pixels (image, row, column), so
  the entry is the shared pixel count.
-/
import proofs.«405121_j41497974014422_3_alg».proof.Proof.Counts
import proofs.«405121_j41497974014422_3_alg».proof.Proof.RefRead
import proofs.«405121_j41497974014422_3_alg».proof.Proof.LibScatter1
import Idealize.ShloMosaic.Lib.IdealHost
import Mathlib.Algebra.BigOperators.Fin
import Mathlib.Data.EReal.Basic

noncomputable section

namespace Cert.Hist.Ref

open Idealize.ShloMosaic Idealize.ShloMosaic.ValueIdx Idealize.ShloMosaic.RouteLib
open Idealize.ShloMosaic.StableHlo.Predicate
open Cert.ReferenceIdeal.Read

/-- The flattened label array's shape. -/
abbrev SFlat : Shape := ⟨1, ![33554432]⟩
/-- The index column's shape. -/
abbrev SCol : Shape := ⟨2, ![33554432, 1]⟩
/-- The histogram table's shape. -/
abbrev STab : Shape := ⟨1, ![23]⟩

/-! ## Where an update lands -/

section Land

variable {R N w : Nat} (d : ScatterDims ⟨1, ![R]⟩ ⟨2, ![N, 1]⟩ ⟨1, ![N]⟩)

/-- Update j lands on entry i exactly when its start index, read signed, is the position of i. -/
theorem resultIdx_iff (hiw : d.insertedWindowDims = [0])
    (hsd : d.scatterDimsToOperandDims = [0]) (hivd : d.indexVectorDim = 1)
    (j : (⟨1, ![N]⟩ : Shape).Idx) (idx : IVec ⟨2, ![N, 1]⟩ w) (i : (⟨1, ![R]⟩ : Shape).Idx) :
    d.resultIdx? j idx = some i ↔ (idx (ixP (j 0))).toInt = ((i 0).val : Int) := by
  constructor
  · intro h
    unfold ScatterDims.resultIdx? at h
    split at h
    · rename_i hb
      have h0 := congrArg Fin.val (congrFun (Option.some.inj h) (0 : Fin 1))
      have hb0 := hb (0 : Fin 1)
      rw [start_eq d hsd hivd, window_eq d hiw] at hb0
      have h1 : (d.start j idx (0 : Fin 1) + (d.window j (0 : Fin 1) : Int)).toNat = (i 0).val := h0
      rw [start_eq d hsd hivd, window_eq d hiw] at h1
      omega
    · cases h
  · intro h
    rw [Shape.Idx.eq_ofFin i]
    exact resultIdx_eq d hiw hsd hivd j idx (i 0) h

end Land

/-! ## Flat positions and pixels -/

/-- The pixel (image, row, column) of a flat position. -/
def tripleOf (j : SFlat.Idx) : Fin 32 × Fin 1024 × Fin 1024 :=
  (⟨(j 0).val / 1048576, by have h0 : (j 0).val < 33554432 := (j 0).isLt; omega⟩,
   ⟨(j 0).val / 1024 % 1024, by omega⟩,
   ⟨(j 0).val % 1024, by omega⟩)

/-- The flat position of a pixel, row-major. -/
def flatOf (t : Fin 32 × Fin 1024 × Fin 1024) : SFlat.Idx :=
  Shape.Idx.ofFin ⟨(t.1.val * 1024 + t.2.1.val) * 1024 + t.2.2.val, by
    have h0 := t.1.isLt; have h1 := t.2.1.isLt; have h2 := t.2.2.isLt; omega⟩

/-- Flat positions and pixels correspond one to one. -/
def flatEquiv : SFlat.Idx ≃ Fin 32 × Fin 1024 × Fin 1024 where
  toFun := tripleOf
  invFun := flatOf
  left_inv j := by
    refine Eq.trans ?_ (Shape.Idx.eq_ofFin j).symm
    unfold flatOf
    congr 1
    apply Fin.ext
    show ((j 0).val / 1048576 * 1024 + (j 0).val / 1024 % 1024) * 1024 + (j 0).val % 1024 = (j 0).val
    have h0 : (j 0).val < 33554432 := (j 0).isLt
    omega
  right_inv t := by
    obtain ⟨b, h, w⟩ := t
    have hb := b.isLt; have hh := h.isLt; have hw := w.isLt
    refine Prod.ext (Fin.ext ?_) (Prod.ext (Fin.ext ?_) (Fin.ext ?_))
    · show ((b.val * 1024 + h.val) * 1024 + w.val) / 1048576 = b.val
      omega
    · show ((b.val * 1024 + h.val) * 1024 + w.val) / 1024 % 1024 = h.val
      omega
    · show ((b.val * 1024 + h.val) * 1024 + w.val) % 1024 = w.val
      omega

/-- The reshape's source index is the pixel of the flat position. -/
theorem idx_eq_ix3 (j : SFlat.Idx) :
    idx_main_v0 j = ix3 (tripleOf j).1 (tripleOf j).2.1 (tripleOf j).2.2 := by
  funext a
  match a with
  | ⟨0, _⟩ => rfl
  | ⟨1, _⟩ => rfl
  | ⟨2, _⟩ => rfl

/-- Counting flat positions by a property of their pixel is counting pixels, image by image,
    columns outside and rows inside. -/
theorem card_flat (P : SArr.Idx → Prop) [DecidablePred P] :
    (Finset.univ.filter (fun j : SFlat.Idx => P (idx_main_v0 j))).card
      = ∑ b : Fin 32, ∑ w : Fin 1024, ∑ h : Fin 1024, if P (ix3 b h w) then 1 else 0 := by
  rw [Finset.card_filter]
  rw [Fintype.sum_equiv flatEquiv (fun j : SFlat.Idx => if P (idx_main_v0 j) then 1 else 0)
    (fun t : Fin 32 × Fin 1024 × Fin 1024 => if P (ix3 t.1 t.2.1 t.2.2) then 1 else 0)
    (fun j => by rw [idx_eq_ix3 j]; rfl)]
  rw [Fintype.sum_prod_type]
  refine Finset.sum_congr rfl fun b _ => ?_
  rw [Fintype.sum_prod_type, Finset.sum_comm]

/-- A sum over the 32 images is the sum over the two halves of 16. -/
theorem sum_halves (f : Fin 32 → ℕ) :
    ∑ b : Fin 32, f b = ∑ i : Fin 16, f (imgOf 0 i) + ∑ i : Fin 16, f (imgOf 1 i) := by
  have e0 : ∀ i : Fin 16, Fin.castAdd 16 i = imgOf 0 i := fun i => Fin.ext (by simp [imgOf])
  have e1 : ∀ i : Fin 16, Fin.natAdd 16 i = imgOf 1 i := fun i => Fin.ext (by simp [imgOf] <;> omega)
  refine (Fin.sum_univ_add (a := 16) (b := 16) f).trans ?_
  simp only [e0, e1]

/-- The count over the whole batch is the number of flat positions whose pixel is counted. -/
theorem totCnt_eq_card (yp yt : IVec SArr 32) (r : Fin 3) (l : Fin 21) :
    totCnt yp yt r l
      = (Finset.univ.filter (fun j : SFlat.Idx =>
          hitB r l (yp (idx_main_v0 j)) (yt (idx_main_v0 j)) = true)).card := by
  rw [card_flat (fun p => hitB r l (yp p) (yt p) = true)]
  unfold totCnt halfCnt
  exact (sum_halves (imgCnt yp yt r l)).symm

/-! ## The index words -/

/-- A non-negative word is not shifted: the select on "negative" keeps it. -/
theorem wrap_nonneg (x : BitVec 32) (hx : 0 ≤ x.toInt) :
    Scalar.select (IntOp.cmpi .slt x 0#32) (IntOp.addi x 23#32) x = x := by
  have hs : x.slt 0#32 = false := by
    simp only [BitVec.slt, BitVec.toInt_zero]
    exact decide_eq_false (by omega)
  unfold Scalar.select IntOp.cmpi
  simp [hs]

/-- The class word read signed is the class. -/
theorem toInt_cls (l : Fin 21) : (cls l).toInt = ((1 + l.val : ℕ) : Int) := by
  revert l; decide

/-- A word read signed is l + 1 exactly when it is the class word of l. -/
theorem toInt_eq_cls (x : BitVec 32) (l : Fin 21) : x.toInt = ((1 + l.val : ℕ) : Int) ↔ x = cls l := by
  rw [← toInt_cls l]; exact BitVec.toInt_inj

/-- The dump bin 22 is no class word. -/
theorem dump_ne_cls (l : Fin 21) : (22#32 : BitVec 32) ≠ cls l := by
  revert l; decide

/-- The true-label histogram's index word: its bin is l + 1 exactly when the true label is the class. -/
theorem word_true (p t : BitVec 32) (ht : 0 ≤ t.toInt) (l : Fin 21) :
    (Scalar.select (IntOp.cmpi .slt t 0#32) (IntOp.addi t 23#32) t).toInt = ((1 + l.val : ℕ) : Int)
      ↔ hitB 0 l p t = true := by
  rw [wrap_nonneg t ht, toInt_eq_cls]
  simp [hitB]

/-- The predicted-label histogram's index word. -/
theorem word_pred (p t : BitVec 32) (hp : 0 ≤ p.toInt) (l : Fin 21) :
    (Scalar.select (IntOp.cmpi .slt p 0#32) (IntOp.addi p 23#32) p).toInt = ((1 + l.val : ℕ) : Int)
      ↔ hitB 1 l p t = true := by
  rw [wrap_nonneg p hp, toInt_eq_cls]
  simp [hitB]

/-- The intersection histogram's index word (the true label where the two agree, else the dump bin 22). -/
theorem word_inter (p t : BitVec 32) (ht : 0 ≤ t.toInt) (l : Fin 21) :
    (Scalar.select (IntOp.cmpi .slt (Scalar.select (IntOp.cmpi .eq p t) t 22#32) 0#32)
        (IntOp.addi (Scalar.select (IntOp.cmpi .eq p t) t 22#32) 23#32)
        (Scalar.select (IntOp.cmpi .eq p t) t 22#32)).toInt = ((1 + l.val : ℕ) : Int)
      ↔ hitB 2 l p t = true := by
  by_cases h : p = t
  · have hw : Scalar.select (IntOp.cmpi .eq p t) t 22#32 = t := by
      unfold Scalar.select IntOp.cmpi; simp [h]
    rw [hw, wrap_nonneg t ht, toInt_eq_cls]
    simp [hitB, h]
  · have hb : (p == t) = false := by simpa using h
    have hw : Scalar.select (IntOp.cmpi .eq p t) t 22#32 = 22#32 := by
      unfold Scalar.select IntOp.cmpi; simp [hb]
    rw [hw, wrap_nonneg 22#32 (by decide), toInt_eq_cls]
    constructor
    · intro e; exact absurd e (dump_ne_cls l)
    · intro e
      simp only [hitB] at e
      simp at e
      exact absurd (e.2.trans e.1.symm) h

/-! ## A scatter of ones into a zero table -/

/-- Entry i of the scatter of ones into a zero table is the number of flat positions whose index word,
    read signed, is the position of i. -/
theorem scatter_ones (idx : IVec SCol 32) (x : FVec Ideal STab .f32) (hx : ∀ i, x i = 0)
    (u : FVec Ideal SFlat .f32) (hu : ∀ j, u j = 1) (i : STab.Idx) :
    Host.scatterAdd (F := Ideal) Cert.ReferenceIdeal.scatter_S23_S33554432x1_S33554432_n_0_0_1 x idx u i
      = (((Finset.univ.filter (fun j : SFlat.Idx => (idx (ixP (j 0))).toInt = ((i 0).val : Int))).card : ℝ) : EReal) := by
  unfold Host.scatterAdd
  rw [Ideal.hostScatterAdd_def]
  unfold Ideal.hostScatterAdd
  rw [hx, zero_add, Finset.sum_congr rfl (fun j _ => hu j), Finset.sum_const, nsmul_one,
    Finset.filter_congr (fun j _ => resultIdx_iff _ rfl rfl rfl j idx i)]
  rfl

/-- The index column read at row n is the wrapped word at flat position n. -/
theorem col_row (j : SFlat.Idx) : idx_main_v8 (ixP (j 0)) = j := by
  funext a
  match a with
  | ⟨0, _⟩ => rfl

/-- A scatter of ones into a zero table whose index word at a flat position is the bin l + 1 exactly
    when the position's pixel is counted: entry l + 1 is the count over the whole batch. -/
theorem hist_eq (yp yt : IVec SArr 32) (r : Fin 3) (l : Fin 21) (idx : IVec SCol 32)
    (x : FVec Ideal STab .f32) (hx : ∀ i, x i = 0) (u : FVec Ideal SFlat .f32) (hu : ∀ j, u j = 1)
    (i : STab.Idx) (hi : (i 0).val = 1 + l.val)
    (hw : ∀ j : SFlat.Idx, (idx (ixP (j 0))).toInt = ((1 + l.val : ℕ) : Int)
      ↔ hitB r l (yp (idx_main_v0 j)) (yt (idx_main_v0 j)) = true) :
    Host.scatterAdd (F := Ideal) Cert.ReferenceIdeal.scatter_S23_S33554432x1_S33554432_n_0_0_1 x idx u i
      = (((totCnt yp yt r l : ℕ) : ℝ) : EReal) := by
  rw [scatter_ones idx x hx u hu i, totCnt_eq_card, hi]
  exact congrArg (fun n : ℕ => ((n : ℝ) : EReal)) (congrArg Finset.card (Finset.filter_congr fun j _ => hw j))

/-- The same for the predicted labels' column. -/
theorem col_row17 (j : SFlat.Idx) : idx_main_v17 (ixP (j 0)) = j := by
  funext a
  match a with
  | ⟨0, _⟩ => rfl

/-- The same for the intersection's column. -/
theorem col_row28 (j : SFlat.Idx) : idx_main_v28 (ixP (j 0)) = j := by
  funext a
  match a with
  | ⟨0, _⟩ => rfl

/-- Both reshapes read the same pixel. -/
theorem idx1_eq (j : SFlat.Idx) : idx_main_v1 j = idx_main_v0 j := by
  funext a
  match a with
  | ⟨0, _⟩ => rfl
  | ⟨1, _⟩ => rfl
  | ⟨2, _⟩ => rfl

/-! ## The three histograms -/

/-- The reference's true-label histogram, classes 1 .. 21, is the count vector of row 0. -/
theorem v31_eq (yp yt : IVec SArr 32) (ht : ∀ i, 0 ≤ (yt i).toInt) :
    val_main_v31 (F := Ideal) yt = cntVec yp yt 0 := by
  funext l
  rw [val_main_v31_apply]
  unfold val_main_v10
  refine hist_eq yp yt 0 (l 0) (val_main_v8 (F := Ideal) yt) (val_main_v2 (F := Ideal))
    (fun i => by rw [val_main_v2_apply, val_main_cst_apply, Ideal.ofBits_def, Ideal.ofBits_zero_f32])
    (val_main_v9 (F := Ideal))
    (fun j => by rw [val_main_v9_apply, val_main_cst_1_apply, Ideal.ofBits_def, Ideal.ofBits_one_f32])
    (idx_main_v31 l) rfl (fun j => ?_)
  rw [val_main_v8_apply, col_row, val_main_v7_apply, val_main_v4_apply, val_main_v6_apply, val_main_v3_apply,
    val_main_c_apply, val_main_v5_apply, val_main_c_0_apply, val_main_v1_apply, idx1_eq]
  exact word_true (yp (idx_main_v0 j)) (yt (idx_main_v0 j)) (ht _) (l 0)

/-- The reference's predicted-label histogram, classes 1 .. 21, is the count vector of row 1. -/
theorem v32_eq (yp yt : IVec SArr 32) (hp : ∀ i, 0 ≤ (yp i).toInt) :
    val_main_v32 (F := Ideal) yp = cntVec yp yt 1 := by
  funext l
  rw [val_main_v32_apply]
  unfold val_main_v19
  refine hist_eq yp yt 1 (l 0) (val_main_v17 (F := Ideal) yp) (val_main_v11 (F := Ideal))
    (fun i => by rw [val_main_v11_apply, val_main_cst_2_apply, Ideal.ofBits_def, Ideal.ofBits_zero_f32])
    (val_main_v18 (F := Ideal))
    (fun j => by rw [val_main_v18_apply, val_main_cst_5_apply, Ideal.ofBits_def, Ideal.ofBits_one_f32])
    (idx_main_v32 l) rfl (fun j => ?_)
  rw [val_main_v17_apply, col_row17, val_main_v16_apply, val_main_v13_apply, val_main_v15_apply, val_main_v12_apply,
    val_main_c_3_apply, val_main_v14_apply, val_main_c_4_apply, val_main_v0_apply]
  exact word_pred (yp (idx_main_v0 j)) (yt (idx_main_v0 j)) (hp _) (l 0)

/-- The reference's intersection histogram, classes 1 .. 21, is the count vector of row 2. -/
theorem v33_eq (yp yt : IVec SArr 32) (ht : ∀ i, 0 ≤ (yt i).toInt) :
    val_main_v33 (F := Ideal) yp yt = cntVec yp yt 2 := by
  funext l
  rw [val_main_v33_apply]
  unfold val_main_v30
  refine hist_eq yp yt 2 (l 0) (val_main_v28 (F := Ideal) yp yt) (val_main_v22 (F := Ideal))
    (fun i => by rw [val_main_v22_apply, val_main_cst_7_apply, Ideal.ofBits_def, Ideal.ofBits_zero_f32])
    (val_main_v29 (F := Ideal))
    (fun j => by rw [val_main_v29_apply, val_main_cst_10_apply, Ideal.ofBits_def, Ideal.ofBits_one_f32])
    (idx_main_v33 l) rfl (fun j => ?_)
  simp only [val_main_v28_apply, col_row28, val_main_v27_apply, val_main_v24_apply, val_main_v26_apply,
    val_main_v23_apply, val_main_c_8_apply, val_main_v25_apply, val_main_c_9_apply, val_main_v21_apply,
    val_main_v20_apply, val_main_call0_v1_apply, val_main_call0_v0_apply, val_main_c_6_apply,
    val_main_v0_apply, val_main_v1_apply, idx1_eq]
  exact word_inter (yp (idx_main_v0 j)) (yt (idx_main_v0 j)) (ht _) (l 0)

end Cert.Hist.Ref

end
-- ==== Proof.RefTail.lean ====
/-
  The reference's arithmetic after its three histograms is, term for term, the shared arithmetic: its per-class
  values are `iouOf` and its mean `miouOf` of the three sliced histogram vectors.
-/
import proofs.«405121_j41497974014422_3_alg».proof.Proof.RefRead
import proofs.«405121_j41497974014422_3_alg».proof.Proof.Counts

set_option maxRecDepth 16384

noncomputable section

namespace Cert.Hist.Ref

open Idealize.ShloMosaic Cert.ReferenceIdeal Cert.ReferenceIdeal.Read Cert.Hist

theorem v40_tail (hb : S_.BroadcastsInDim S21 (![] : Fin 0 → Fin S21.rank)) (x0 x1 : IVec SArr 32) :
    val_main_v40 (F := Ideal) x0 x1
      = iouOf hb (val_main_v31 (F := Ideal) x1) (val_main_v32 (F := Ideal) x0) (val_main_v33 (F := Ideal) x0 x1) := by
  unfold val_main_v40 val_main_v37 val_main_v39 val_main_v35 val_main_v34 val_main_v36 val_main_v38 val_main_cst_11 val_main_cst_12 iouOf
  rfl

theorem v48_tail (hb : S_.BroadcastsInDim S21 (![] : Fin 0 → Fin S21.rank)) (hr : S21.ReducesTo [0] S_) (hs : 0 < S_.numel)
    (x0 x1 : IVec SArr 32) :
    val_main_v48 (F := Ideal) x0 x1
      = miouOf hb hr hs (val_main_v31 (F := Ideal) x1) (val_main_v32 (F := Ideal) x0) (val_main_v33 (F := Ideal) x0 x1) := by
  unfold val_main_v48 val_main_v45 val_main_v47 val_main_v46 val_main_v44 val_main_v43 val_main_v42 val_main_v41
    val_main_cst_13 val_main_cst_14 val_main_cst_15 val_main_cst_16 miouOf presentOf
  rw [v40_tail hb]

end Cert.Hist.Ref

end
-- ==== Proof.PreRead.lean ====
/-
  The precondition read: both label arrays are non-negative.

  The printed predicate is the conjunction of two reductions by "and", over all entries, of the signed
  compare "entry at least zero" — one for the predicted labels, one for the true labels. When it is 1,
  every compare is 1, and a signed "at least zero" that is 1 says the word, read signed, is non-negative.
-/
import proofs.«405121_j41497974014422_3_alg».proof.Pre_any_inputs
import proofs.«405121_j41497974014422_3_alg».proof.Proof.Counts
import Idealize.ShloMosaic.Lib.ReduceAll
import Idealize.ShloMosaic.Lib.ValueIdx

noncomputable section

namespace Cert.Hist.Pre

open Idealize.ShloMosaic Idealize.ShloMosaic.ValueIdx

/-- A signed "at least zero" compare that is 1 says the word is non-negative. -/
theorem sge_zero (x : BitVec 32) : IntOp.cmpi .sge x 0#32 = 1#1 ↔ 0 ≤ x.toInt := by
  simp only [IntOp.cmpi, BitVec.sle, BitVec.toInt_zero]
  by_cases hx : 0 ≤ x.toInt
  · simp [hx]
  · simp [hx]

/-- Under the precondition every predicted and every true label is non-negative. -/
theorem nonneg_of_pre [Cert.Pre_any_inputs.Facts] (yp yt : IVec SArr 32)
    (h : Cert.Pre_any_inputs.fn (F := Ideal) yp yt = fun _ => 1#1) :
    (∀ i, 0 ≤ (yp i).toInt) ∧ (∀ i, 0 ≤ (yt i).toInt) := by
  haveI : Subsingleton Cert.Pre_any_inputs.S_.Idx := ⟨fun a b => funext fun d => d.elim0⟩
  have h0 := congrFun h ix0
  dsimp only [Cert.Pre_any_inputs.fn] at h0
  obtain ⟨h1, h2⟩ := IntOp.andi_eq_one.1 h0
  constructor
  · intro i
    exact (sge_zero (yp i)).1 (Host.reduce_andi_all _ _ _ _ _ h1 i)
  · intro i
    exact (sge_zero (yt i)).1 (Host.reduce_andi_all _ _ _ _ _ h2 i)

end Cert.Hist.Pre

end
-- ==== Proof.lean ====
/-
  The certificate: a Pallas kernel that scores a segmentation batch — 32 label images of 1024 x 1024 pixels,
  predicted against true — by per-class intersection over union for the classes 1 .. 21 and its mean over the
  classes that occur, against the jnp reference that builds three 23-bin histograms by scatter-add.

  Both programs reduce the two label arrays to three count vectors over the 21 classes (pixels whose true label
  is the class, pixels whose predicted label is the class, pixels where both are) and then apply the same
  arithmetic. The kernel counts by comparison: per image and class it builds the 0 / 1 masks, sums them exactly
  (a row of ones through the matrix unit, then a lane sum), adds the per-image counts as 32-bit words over the 16
  images of each half of the batch, and adds the two halves outside the kernel; no count exceeds 2^25, so no word
  wraps. The reference counts by scattering ones into bin (label), dropping labels ≥ 23 and wrapping negative
  ones by + 23; the certificate's precondition is that both label arrays are non-negative, under which bin c of
  each histogram is the number of pixels with that label (for the third histogram: with both labels c), the same
  natural number the kernel's comparisons count. Over the extended reals the two results are then one term.
-/
import proofs.«405121_j41497974014422_3_alg».proof.Defs
import proofs.«405121_j41497974014422_3_alg».proof.Proof.Gen.Kernel
import proofs.«405121_j41497974014422_3_alg».proof.Proof.Gen.Kernel.Skeleton
import proofs.«405121_j41497974014422_3_alg».proof.Proof.Gen.Kernel.Loops
import proofs.«405121_j41497974014422_3_alg».proof.Proof.Gen.Kernel.Launch
import proofs.«405121_j41497974014422_3_alg».proof.Proof.Gen.Kernel.Points
import proofs.«405121_j41497974014422_3_alg».proof.Proof.Gen.Kernel.Frame
import proofs.«405121_j41497974014422_3_alg».proof.Proof.Gen.KernelIdeal
import proofs.«405121_j41497974014422_3_alg».proof.Proof.Gen.KernelIdeal.Skeleton
import proofs.«405121_j41497974014422_3_alg».proof.Proof.Gen.KernelIdeal.Loops
import proofs.«405121_j41497974014422_3_alg».proof.Proof.Gen.KernelIdeal.Launch
import proofs.«405121_j41497974014422_3_alg».proof.Proof.Gen.KernelIdeal.Points
import proofs.«405121_j41497974014422_3_alg».proof.Proof.Gen.KernelIdeal.Frame
import proofs.«405121_j41497974014422_3_alg».proof.Proof.Gen.ReferenceIdeal
import proofs.«405121_j41497974014422_3_alg».proof.Proof.Gen.Pre_any_inputs
import proofs.«405121_j41497974014422_3_alg».proof.Proof.KernelTail
import proofs.«405121_j41497974014422_3_alg».proof.Proof.RefCounts
import proofs.«405121_j41497974014422_3_alg».proof.Proof.RefTail
import proofs.«405121_j41497974014422_3_alg».proof.Proof.PreRead
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_any_inputs := Cert.Pre_any_inputs.Gen.facts) :=
  fun m ρ _ => Cert.Kernel.Gen.frame m ρ

theorem frame_ki : Cert.frame_KernelIdeal (hKernelIdeal := Cert.KernelIdeal.Gen.facts) (hPre_any_inputs := Cert.Pre_any_inputs.Gen.facts) :=
  fun m ρ _ => Cert.KernelIdeal.Gen.frame m ρ

/-- The reference's frame is its run with the results dropped. -/
theorem frame_ri : Cert.frame_ReferenceIdeal (hReferenceIdeal := Cert.ReferenceIdeal.Gen.facts) (hPre_any_inputs := Cert.Pre_any_inputs.Gen.facts) :=
  fun m ρ _ => (θ_run Cert.ReferenceIdeal.defs _ _).mono (fun _ h c => (h c).2.2) (Cert.ReferenceIdeal.Value.run (F := Ideal) m ρ)

/-- Both programs end at the shared arithmetic of the three count vectors of the (agreeing, non-negative) label arrays. -/
theorem algebraic : Cert.algebraic_KernelIdeal_ReferenceIdeal (hKernelIdeal := Cert.KernelIdeal.Gen.facts)
    (hReferenceIdeal := Cert.ReferenceIdeal.Gen.facts) (hPre_any_inputs := Cert.Pre_any_inputs.Gen.facts) := by
  intro m ρ m' ρ' hpre hagree
  refine ⟨_, _, Cert.KernelIdeal.HistValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · have hn := Cert.Hist.Pre.nonneg_of_pre _ _ (hpre c)
    rw [Cert.ReferenceIdeal.Read.val_main_v48_eq, (hagree c).1, (hagree c).2,
      Cert.Hist.Ref.v48_tail Cert.KernelIdeal.Facts₀.bcast_S_S21 Cert.KernelIdeal.Facts₀.reducesTo_S21_S_d0 Cert.KernelIdeal.Facts₀.h_S_,
      Cert.Hist.Ref.v31_eq _ _ hn.2, Cert.Hist.Ref.v32_eq _ _ hn.1, Cert.Hist.Ref.v33_eq _ _ hn.2]
  · have hn := Cert.Hist.Pre.nonneg_of_pre _ _ (hpre c)
    rw [Cert.ReferenceIdeal.Read.val_main_v40_eq, (hagree c).1, (hagree c).2,
      Cert.Hist.Ref.v40_tail Cert.KernelIdeal.Facts₀.bcast_S_S21,
      Cert.Hist.Ref.v31_eq _ _ hn.2, Cert.Hist.Ref.v32_eq _ _ hn.1, Cert.Hist.Ref.v33_eq _ _ hn.2]

theorem claim : Cert.Claim :=
  ⟨Cert.Kernel.Gen.facts, Cert.KernelIdeal.Gen.facts, Cert.ReferenceIdeal.Gen.facts, Cert.Pre_any_inputs.Gen.facts,
    frame_k, frame_ki, frame_ri, trivial, algebraic⟩

end Cert.Proof

end
